-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x1250000 : Shape := ⟨2, ![2, 1250000]⟩
abbrev S1250000x16 : Shape := ⟨2, ![1250000, 16]⟩
abbrev S144x128 : Shape := ⟨2, ![144, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S1250000x16 : S_.BroadcastsInDim S1250000x16 (![] : Fin 0 → Fin S1250000x16.rank)
  reducesTo_S1250000x16_S_d0_1 : S1250000x16.ReducesTo [0, 1] S_
  bcast_S_S144x128 : S_.BroadcastsInDim S144x128 (![] : Fin 0 → Fin S144x128.rank)
  reducesTo_S144x128_S_d0_1 : S144x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128x64 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_v33

def fn {F : FTy → Type} [FloatOps F] (main_arg0 : FVec F S50000x64 .f32) (main_arg1 : IVec S2x1250000 32) (main_arg2 : FVec F S1250000x16 .f32) (main_arg3 : FVec F S144x128 .f32) (main_arg4 : FVec F S128 .f32) (main_arg5 : FVec F S128x128 .f32) (main_arg6 : FVec F S128 .f32) (main_arg7 : FVec F S128x64 .f32) (main_arg8 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S1250000x16 .f32 := Host.absf main_arg2
  let main_cst_0 : FVec F S_ .f32 := constant S_ .f32 0x7F800000#32
  let main_v5 : FVec F S1250000x16 .f32 := broadcastInDim S1250000x16 ![] bcast_S_S1250000x16 main_cst_0
  let main_v6 : IVec S1250000x16 1 := cmpf .olt main_v4 main_v5
  let main_c_1 : IVec S_ 1 := constantI S_ 1 1#1
  let main_v7 : IVec S_ 1 := (fun x v => Host.reduce IntOp.andi x v reducesTo_S1250000x16_S_d0_1 h_S_) main_v6 main_c_1
  let main_v8 : IVec S_ 1 := andi main_v3 main_v7
  let main_v9 : FVec F S144x128 .f32 := Host.absf main_arg3
  let main_cst_2 : FVec F S_ .f32 := constant S_ .f32 0x7F800000#32
  let main_v10 : FVec F S144x128 .f32 := broadcastInDim S144x128 ![] bcast_S_S144x128 main_cst_2
  let main_v11 : IVec S144x128 1 := cmpf .olt main_v9 main_v10
  let main_c_3 : IVec S_ 1 := constantI S_ 1 1#1
  let main_v12 : IVec S_ 1 := (fun x v => Host.reduce IntOp.andi x v reducesTo_S144x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S50000x64 : Shape := ⟨2, ![50000, 64]⟩
abbrev S2x1250000 : Shape := ⟨2, ![2, 1250000]⟩
abbrev S1250000x16 : Shape := ⟨2, ![1250000, 16]⟩
abbrev S144x128 : Shape := ⟨2, ![144, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S1250000x144 : Shape := ⟨2, ![1250000, 144]⟩
abbrev S1x128 : Shape := ⟨2, ![1, 128]⟩
abbrev S1x64 : Shape := ⟨2, ![1, 64]⟩
abbrev S5000x144 : Shape := ⟨2, ![5000, 144]⟩
abbrev S5000x64 : Shape := ⟨2, ![5000, 64]⟩
abbrev S5000x128 : Shape := ⟨2, ![5000, 128]⟩
abbrev S50000 : Shape := ⟨1, ![50000]⟩
abbrev S50000x1 : Shape := ⟨2, ![50000, 1]⟩

abbrev nBuf : Space → Nat
  | .hbm => 53
  | .vmem => 10
  | .smem => 0
  | _ => 0

abbrev bufTy : (tb : Table) → Fin (tcTables nBuf tb) → BufTy
  | .hbm, ⟨0, _⟩ => ⟨S50000x64, .f32⟩
  | .hbm, ⟨1, _⟩ => ⟨S2x1250000, .i32⟩
  | .hbm, ⟨2, _⟩ => ⟨S1250000x16, .f32⟩
  | .hbm, ⟨3, _⟩ => ⟨S144x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S1x1250000, .i32⟩
  | .hbm, ⟨10, _⟩ => ⟨S1250000, .i32⟩
  | .hbm, ⟨11, _⟩ => ⟨S1x1250000, .i32⟩
  | .hbm, ⟨12, _⟩ => ⟨S1250000, .i32⟩
  | .hbm, ⟨13, _⟩ => ⟨S_, .i32⟩
  | .hbm, ⟨14, _⟩ => ⟨S1250000, .i32⟩
  | .hbm, ⟨15, _⟩ => ⟨S1250000, .i1⟩
  | .hbm, ⟨16, _⟩ => ⟨S_, .i32⟩
  | .hbm, ⟨17, _⟩ => ⟨S1250000, .i32⟩
  | .hbm, ⟨18, _⟩ => ⟨S1250000, .i32⟩
  | .hbm, ⟨19, _⟩ => ⟨S1250000, .i32⟩
  | .hbm, ⟨20, _⟩ => ⟨S1250000x1, .i32⟩
  | .hbm, ⟨21, _⟩ => ⟨S1250000x64, .f32⟩
  | .hbm, ⟨22, _⟩ => ⟨S_, .i32⟩
  | .hbm, ⟨23, _⟩ => ⟨S1250000, .i32⟩
  | .hbm, ⟨24, _⟩ => ⟨S1250000, .i1⟩
  | .hbm, ⟨25, _⟩ => ⟨S_, .i32⟩
  | .hbm, ⟨26, _⟩ => ⟨S1250000, .i32⟩
  | .hbm, ⟨27, _⟩ => ⟨S1250000, .i32⟩
  | .hbm, ⟨28, _⟩ => ⟨S1250000, .i32⟩
  | .hbm, ⟨29, _⟩ => ⟨S1250000x1, .i32⟩
  | .hbm, ⟨30, _⟩ => ⟨S1250000x64, .f32⟩
  | .hbm, ⟨31, _⟩ => ⟨S1250000x144, .f32⟩
  | .hbm, ⟨32, _⟩ => ⟨S1x128, .f32⟩
  | .hbm, ⟨33, _⟩ => ⟨S1x128, .f32⟩
  | .hbm, ⟨34, _⟩ => ⟨S1x64, .f32⟩
  | .hbm, ⟨35, _⟩ => ⟨S1250000x64, .f32⟩
  | .hbm, ⟨36, _⟩ => ⟨S_, .f32⟩
  | .hbm, ⟨37, _⟩ => ⟨S50000x64, .f32⟩
  | .hbm, ⟨38, _⟩ => ⟨S1250000x1, .i32⟩
  | .hbm, ⟨39, _⟩ => ⟨S50000x64, .f32⟩
  | .hbm, ⟨40, _⟩ => ⟨S_, .f32⟩
  | .hbm, ⟨41, _⟩ => ⟨S1250000, .f32⟩
  | .hbm, ⟨42, _⟩ => ⟨S_, .f32⟩
  | .hbm, ⟨43, _⟩ => ⟨S50000, .f32⟩
  | .hbm, ⟨44, _⟩ => ⟨S1250000x1, .i32⟩
  | .hbm, ⟨45, _⟩ => ⟨S50000, .f32⟩
  | .hbm, ⟨46, _⟩ => ⟨S_, .f32⟩
  | .hbm, ⟨47, _⟩ => ⟨S50000, .f32⟩
  | .hbm, ⟨48, _⟩ => ⟨S50000, .f32⟩
  | .hbm, ⟨49, _⟩ => ⟨S50000x1, .f32⟩
  | .hbm, ⟨50, _⟩ => ⟨S50000x64, .f32⟩
  | .hbm, ⟨51, _⟩ => ⟨S50000x64, .f32⟩
  | .hbm, ⟨52, _⟩ => ⟨S50000x64, .f32⟩
  | .local _ .vmem, ⟨0, _⟩ => ⟨S5000x144, .f32⟩
  | .local _ .vmem, ⟨1, _⟩ => ⟨S5000x144, .f32⟩
  | .local _ .vmem, ⟨2, _⟩ => ⟨S144x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S144x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  concatenates_S1250000x64_S1250000x64_S1250000x16_S1250000x144_d1 : Shape.Concatenates [S1250000x64, S1250000x64, S1250000x16] S1250000x144 1
  shapeCasts_S128_S1x128 : S128.ShapeCasts S1x128
  shapeCasts_S64_S1x64 : S64.ShapeCasts S1x64
  inb_S5000x144_S5000x144_0_0 : ∀ a, (![0, 0] : Fin 2 → Nat) a + S5000x144.size a ≤ S5000x144.size a
  h_S5000x144 : 0 < S5000x144.numel
  shapeCasts_S5000x144_S5000x144 : S5000x144.ShapeCasts S5000x144
  bitsLt_bf16_f32 : FTy.bits .bf16 < FTy.bits .f32
  inb_S144x128_S144x128_0_0 : ∀ a, (![0, 0] : Fin 2 → Nat) a + S144x128.size a ≤ S144x128.size a
  h_S144x128 : 0 < S144x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  gather_S50000x64_S1250000x1_S1250000x64_1_0_n_n_0_1_164_wf : GatherDims.WF S50000x64 S1250000x1 S1250000x64 [1] [0] [] [0] [] 1 ![1, 64]
  dot_S5000x144_S144x128_S5000x128_1_0_0_1_n_n_wf : DotDims.WF S5000x144 S144x128 S5000x128 [1] [0] [0] [1] [] []
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  scatter_S50000x64_S1250000x1_S1250000x64_1_0_0_1_wf : ScatterDims.WF S50000x64 S1250000x1 S1250000x64 [1] [0] [0] 1
  scatter_S50000_S1250000x1_S1250000_n_0_0_1_wf : ScatterDims.WF S50000 S1250000x1 S1250000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x144.size a ≤ S1250000x144.size a
  hwx0_0 : ∀ i : grid0.Coords, EltTy.bits .f32 = 32 ∨ (Rect.block (s := S1250000x144) S5000x144.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S144x128.size a ≤ S144x128.size a
  hwx0_1 : ∀ i : grid0.Coords, EltTy.bits .f32 = 32 ∨ (Rect.block (s := S144x128) S144x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S1250000x64.size a
  hwx0_7 : ∀ i : grid0.Coords, EltTy.bits .f32 = 32 ∨ (Rect.block (s := S1250000x64) S5000x64.size (cc0_transform_7 i) (hinb0_7 i)).WholeWords (EltTy.packing .f32)

variable [Facts₀]

def gather_S50000x64_S1250000x1_S1250000x64_1_0_n_n_0_1_164 : GatherDims S50000x64 S1250000x1 S1250000x64 where
  offsetDims := [1]
  collapsedSliceDims := [0]
  operandBatchingDims := []
  startIndicesBatchingDims := []
  startIndexMap := [0]
  indexVectorDim := 1
  sliceSizes := ![1, 64]
  wf := gather_S50000x64_S1250000x1_S1250000x64_1_0_n_n_0_1_164_wf
def dot_S5000x144_S144x128_S5000x128_1_0_0_1_n_n : DotDims S5000x144 S144x128 S5000x128 where
  lhsContracting := [1]
  rhsContracting := [0]
  lhsNonContracting := [0]
  rhsNonContracting := [1]
  lhsBatch := []
  rhsBatch := []
  wf := dot_S5000x144_S144x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def scatter_S50000x64_S1250000x1_S1250000x64_1_0_0_1 : ScatterDims S50000x64 S1250000x1 S1250000x64 where
  updateWindowDims := [1]
  insertedWindowDims := [0]
  scatterDimsToOperandDims := [0]
  indexVectorDim := 1
  wf := scatter_S50000x64_S1250000x1_S1250000x64_1_0_0_1_wf
def scatter_S50000_S1250000x1_S1250000_n_0_0_1 : ScatterDims S50000 S1250000x1 S1250000 where
  updateWindowDims := []
  insertedWindowDims := [0]
  scatterDimsToOperandDims := [0]
  indexVectorDim := 1
  wf := scatter_S50000_S1250000x1_S1250000_n_0_0_1_wf

abbrev win0_0 : Pipeline.Window sig grid0 :=
  Pipeline.Window.ofSpec (Memref.whole main_v18) S5000x144.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S144x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S5000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x1250000 : Shape := ⟨2, ![2, 1250000]⟩
abbrev S1250000x16 : Shape := ⟨2, ![1250000, 16]⟩
abbrev S144x128 : Shape := ⟨2, ![144, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S1250000x144 : Shape := ⟨2, ![1250000, 144]⟩
abbrev S1250000x128 : Shape := ⟨2, ![1250000, 128]⟩
abbrev S1x128 : Shape := ⟨2, ![1, 128]⟩
abbrev S1x64 : Shape := ⟨2, ![1, 64]⟩
abbrev S50000 : Shape := ⟨1, ![50000]⟩
abbrev S50000x1 : Shape := ⟨2, ![50000, 1]⟩

abbrev nBuf : Space → Nat
  | .hbm => 67
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x1250000, .i32⟩
  | .hbm, ⟨2, _⟩ => ⟨S1250000x16, .f32⟩
  | .hbm, ⟨3, _⟩ => ⟨S144x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S1x1250000, .i32⟩
  | .hbm, ⟨10, _⟩ => ⟨S1250000, .i32⟩
  | .hbm, ⟨11, _⟩ => ⟨S1x1250000, .i32⟩
  | .hbm, ⟨12, _⟩ => ⟨S1250000, .i32⟩
  | .hbm, ⟨13, _⟩ => ⟨S_, .i32⟩
  | .hbm, ⟨14, _⟩ => ⟨S1250000, .i32⟩
  | .hbm, ⟨15, _⟩ => ⟨S1250000, .i1⟩
  | .hbm, ⟨16, _⟩ => ⟨S_, .i32⟩
  | .hbm, ⟨17, _⟩ => ⟨S1250000, .i32⟩
  | .hbm, ⟨18, _⟩ => ⟨S1250000, .i32⟩
  | .hbm, ⟨19, _⟩ => ⟨S1250000, .i32⟩
  | .hbm, ⟨20, _⟩ => ⟨S1250000x1, .i32⟩
  | .hbm, ⟨21, _⟩ => ⟨S1250000x64, .f32⟩
  | .hbm, ⟨22, _⟩ => ⟨S_, .i32⟩
  | .hbm, ⟨23, _⟩ => ⟨S1250000, .i32⟩
  | .hbm, ⟨24, _⟩ => ⟨S1250000, .i1⟩
  | .hbm, ⟨25, _⟩ => ⟨S_, .i32⟩
  | .hbm, ⟨26, _⟩ => ⟨S1250000, .i32⟩
  | .hbm, ⟨27, _⟩ => ⟨S1250000, .i32⟩
  | .hbm, ⟨28, _⟩ => ⟨S1250000, .i32⟩
  | .hbm, ⟨29, _⟩ => ⟨S1250000x1, .i32⟩
  | .hbm, ⟨30, _⟩ => ⟨S1250000x64, .f32⟩
  | .hbm, ⟨31, _⟩ => ⟨S1250000x144, .f32⟩
  | .hbm, ⟨32, _⟩ => ⟨S1250000x128, .f32⟩
  | .hbm, ⟨33, _⟩ => ⟨S1x128, .f32⟩
  | .hbm, ⟨34, _⟩ => ⟨S1250000x128, .f32⟩
  | .hbm, ⟨35, _⟩ => ⟨S1250000x128, .f32⟩
  | .hbm, ⟨36, _⟩ => ⟨S_, .f32⟩
  | .hbm, ⟨37, _⟩ => ⟨S1250000x128, .f32⟩
  | .hbm, ⟨38, _⟩ => ⟨S1250000x128, .f32⟩
  | .hbm, ⟨39, _⟩ => ⟨S1250000x128, .f32⟩
  | .hbm, ⟨40, _⟩ => ⟨S1x128, .f32⟩
  | .hbm, ⟨41, _⟩ => ⟨S1250000x128, .f32⟩
  | .hbm, ⟨42, _⟩ => ⟨S1250000x128, .f32⟩
  | .hbm, ⟨43, _⟩ => ⟨S_, .f32⟩
  | .hbm, ⟨44, _⟩ => ⟨S1250000x128, .f32⟩
  | .hbm, ⟨45, _⟩ => ⟨S1250000x128, .f32⟩
  | .hbm, ⟨46, _⟩ => ⟨S1250000x64, .f32⟩
  | .hbm, ⟨47, _⟩ => ⟨S1x64, .f32⟩
  | .hbm, ⟨48, _⟩ => ⟨S1250000x64, .f32⟩
  | .hbm, ⟨49, _⟩ => ⟨S1250000x64, .f32⟩
  | .hbm, ⟨50, _⟩ => ⟨S_, .f32⟩
  | .hbm, ⟨51, _⟩ => ⟨S50000x64, .f32⟩
  | .hbm, ⟨52, _⟩ => ⟨S1250000x1, .i32⟩
  | .hbm, ⟨53, _⟩ => ⟨S50000x64, .f32⟩
  | .hbm, ⟨54, _⟩ => ⟨S_, .f32⟩
  | .hbm, ⟨55, _⟩ => ⟨S1250000, .f32⟩
  | .hbm, ⟨56, _⟩ => ⟨S_, .f32⟩
  | .hbm, ⟨57, _⟩ => ⟨S50000, .f32⟩
  | .hbm, ⟨58, _⟩ => ⟨S1250000x1, .i32⟩
  | .hbm, ⟨59, _⟩ => ⟨S50000, .f32⟩
  | .hbm, ⟨60, _⟩ => ⟨S_, .f32⟩
  | .hbm, ⟨61, _⟩ => ⟨S50000, .f32⟩
  | .hbm, ⟨62, _⟩ => ⟨S50000, .f32⟩
  | .hbm, ⟨63, _⟩ => ⟨S50000x1, .f32⟩
  | .hbm, ⟨64, _⟩ => ⟨S50000x64, .f32⟩
  | .hbm, ⟨65, _⟩ => ⟨S50000x64, .f32⟩
  | .hbm, ⟨66, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call0_cst : Ref sig .tc := ⟨.hbm, 36, rfl⟩
abbrev main_call0_v0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call1_cst : Ref sig .tc := ⟨.hbm, 43, rfl⟩
abbrev main_call1_v0 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_3 : Ref sig .tc := ⟨.hbm, 54, rfl⟩
abbrev main_v36 : Ref sig .tc := ⟨.hbm, 55, rfl⟩
abbrev main_cst_4 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_5 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  concatenates_S1250000x64_S1250000x64_S1250000x16_S1250000x144_d1 : Shape.Concatenates [S1250000x64, S1250000x64, S1250000x16] S1250000x144 1
  bcast_S128_S1x128_1 : S128.BroadcastsInDim S1x128 (![1] : Fin 1 → Fin S1x128.rank)
  bcast_S1x128_S1250000x128_0_1 : S1x128.BroadcastsInDim S1250000x128 (![0, 1] : Fin 2 → Fin S1250000x128.rank)
  bcast_S_S1250000x128 : S_.BroadcastsInDim S1250000x128 (![] : Fin 0 → Fin S1250000x128.rank)
  bcast_S64_S1x64_1 : S64.BroadcastsInDim S1x64 (![1] : Fin 1 → Fin S1x64.rank)
  bcast_S1x64_S1250000x64_0_1 : S1x64.BroadcastsInDim S1250000x64 (![0, 1] : Fin 2 → Fin S1250000x64.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  gather_S50000x64_S1250000x1_S1250000x64_1_0_n_n_0_1_164_wf : GatherDims.WF S50000x64 S1250000x1 S1250000x64 [1] [0] [] [0] [] 1 ![1, 64]
  dot_S1250000x144_S144x128_S1250000x128_1_0_0_1_n_n_wf : DotDims.WF S1250000x144 S144x128 S1250000x128 [1] [0] [0] [1] [] []
  dot_S1250000x128_S128x128_S1250000x128_1_0_0_1_n_n_wf : DotDims.WF S1250000x128 S128x128 S1250000x128 [1] [0] [0] [1] [] []
  dot_S1250000x128_S128x64_S1250000x64_1_0_0_1_n_n_wf : DotDims.WF S1250000x128 S128x64 S1250000x64 [1] [0] [0] [1] [] []
  scatter_S50000x64_S1250000x1_S1250000x64_1_0_0_1_wf : ScatterDims.WF S50000x64 S1250000x1 S1250000x64 [1] [0] [0] 1
  scatter_S50000_S1250000x1_S1250000_n_0_0_1_wf : ScatterDims.WF S50000 S1250000x1 S1250000 [] [0] [0] 1

variable [Facts₀]

def gather_S50000x64_S1250000x1_S1250000x64_1_0_n_n_0_1_164 : GatherDims S50000x64 S1250000x1 S1250000x64 where
  offsetDims := [1]
  collapsedSliceDims := [0]
  operandBatchingDims := []
  startIndicesBatchingDims := []
  startIndexMap := [0]
  indexVectorDim := 1
  sliceSizes := ![1, 64]
  wf := gather_S50000x64_S1250000x1_S1250000x64_1_0_n_n_0_1_164_wf
def dot_S1250000x144_S144x128_S1250000x128_1_0_0_1_n_n : DotDims S1250000x144 S144x128 S1250000x128 where
  lhsContracting := [1]
  rhsContracting := [0]
  lhsNonContracting := [0]
  rhsNonContracting := [1]
  lhsBatch := []
  rhsBatch := []
  wf := dot_S1250000x144_S144x128_S1250000x128_1_0_0_1_n_n_wf
def dot_S1250000x128_S128x128_S1250000x128_1_0_0_1_n_n : DotDims S1250000x128 S128x128 S1250000x128 where
  lhsContracting := [1]
  rhsContracting := [0]
  lhsNonContracting := [0]
  rhsNonContracting := [1]
  lhsBatch := []
  rhsBatch := []
  wf := dot_S1250000x128_S128x128_S1250000x128_1_0_0_1_n_n_wf
def dot_S1250000x128_S128x64_S1250000x64_1_0_0_1_n_n : DotDims S1250000x128 S128x64 S1250000x64 where
  lhsContracting := [1]
  rhsContracting := [0]
  lhsNonContracting := [0]
  rhsNonContracting := [1]
  lhsBatch := []
  rhsBatch := []
  wf := dot_S1250000x128_S128x64_S1250000x64_1_0_0_1_n_n_wf
def scatter_S50000x64_S1250000x1_S1250000x64_1_0_0_1 : ScatterDims S50000x64 S1250000x1 S1250000x64 where
  updateWindowDims := [1]
  insertedWindowDims := [0]
  scatterDimsToOperandDims := [0]
  indexVectorDim := 1
  wf := scatter_S50000x64_S1250000x1_S1250000x64_1_0_0_1_wf
def scatter_S50000_S1250000x1_S1250000_n_0_0_1 : ScatterDims S50000 S1250000x1 S1250000 where
  updateWindowDims := []
  insertedWindowDims := [0]
  scatterDimsToOperandDims := [0]
  indexVectorDim := 1
  wf := scatter_S50000_S1250000x1_S1250000_n_0_0_1_wf

class Facts : Prop extends Facts₀ where

variable [Facts]
-- ==== Proof.FrameBits.lean ====
/-
  The program runs to its end, faults nowhere and leaves its nine argument arrays as launched; and the run says what
  every array holds at the end.

  @main is twenty-six host operations (the two endpoint gathers, their concatenation with the edge features into the
  [1250000, 144] array of edge rows, three bias vectors laid out as rows), ONE pipelined region over 250 grid points, and
  seventeen host operations after it (the scatter-mean and the residual sum). At point `t` the region hands the body the
  block of 5000 edge rows `5000·t … 5000·t + 4999` and the six whole weight and bias arrays (fetched once, at the first
  point: their block index never moves), and writes back the block of 5000 message rows the body stores. The body loads
  its seven input blocks whole, computes, and stores ONE value covering its whole output block, so what the output
  buffer holds after the body is that value: `blockOut` below, the body's arithmetic (`k0_pay1`) of the seven blocks.

  The frame is then the launch library's run of a region between two stretches of host operations
  (`Pipeline.θ_run_frame_around`): it asks for the contents each window's staging buffer holds after the body at each point
  (`dats`), the body's triple at a generic point (`sound_kernel`, `sound_body`), that the host lines before the region
  write no argument (`entry_main_argK`), and that the host lines after it write neither an argument nor an array of the
  pipeline (`tail_keeps`, `exit_main_argK`).
-/
import proofs.«404242_j76845554860742_4_alg».proof.Proof.Gen.Kernel.Launch
import proofs.«404242_j76845554860742_4_alg».proof.Proof.Gen.Kernel.Skeleton
import proofs.«404242_j76845554860742_4_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the twenty-six host operations
    before the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, the host operations after it: it reduces to the region
    continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch the pipeline's arrays and the buffers that bypass it only. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result buffer, which is no array of the pipeline. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)

/-- No operation of the stretch before the region writes the reference in question: each writes its own result. -/
local macro "entry_untouched" : tactic => `(tactic| (
  simp only [hostOps0, List.flatten_cons, List.flatten_nil, List.append_nil, List.cons_append,
    List.nil_append, List.Forall, StableHlo.nullary_writes, StableHlo.unary_writes, StableHlo.binary_writes,
    StableHlo.ternary_writes, StableHlo.nary_writes, StableHlo.reshape_writes, Finset.mem_singleton]
  repeat' apply And.intro
  all_goals exact StableHlo.devRef_ne_of_ne (by decide)))
/-- The same for the stretch after the region. -/
local macro "exit_untouched" : tactic => `(tactic| (
  simp only [hostOps1, List.flatten_cons, List.flatten_nil, List.append_nil, List.cons_append,
    List.nil_append, List.Forall, StableHlo.nullary_writes, StableHlo.unary_writes, StableHlo.binary_writes,
    StableHlo.ternary_writes, StableHlo.nary_writes, StableHlo.reshape_writes, Finset.mem_singleton]
  repeat' apply And.intro
  all_goals exact StableHlo.devRef_ne_of_ne (by decide)))

/-! The region finds every argument as launched. -/
theorem entry_main_arg0 (c : Dev nD) : V m c main_arg0 = m ((c : Thread nD τ).loc main_arg0) :=
  StableHlo.after_of_forall_not_mem (b := Proc.devRef .tc main_arg0) _ _ (List.forall_iff_forall_mem.mp (by entry_untouched))
theorem entry_main_arg1 (c : Dev nD) : V m c main_arg1 = m ((c : Thread nD τ).loc main_arg1) :=
  StableHlo.after_of_forall_not_mem (b := Proc.devRef .tc main_arg1) _ _ (List.forall_iff_forall_mem.mp (by entry_untouched))
theorem entry_main_arg2 (c : Dev nD) : V m c main_arg2 = m ((c : Thread nD τ).loc main_arg2) :=
  StableHlo.after_of_forall_not_mem (b := Proc.devRef .tc main_arg2) _ _ (List.forall_iff_forall_mem.mp (by entry_untouched))
theorem entry_main_arg3 (c : Dev nD) : V m c main_arg3 = m ((c : Thread nD τ).loc main_arg3) :=
  StableHlo.after_of_forall_not_mem (b := Proc.devRef .tc main_arg3) _ _ (List.forall_iff_forall_mem.mp (by entry_untouched))
theorem entry_main_arg4 (c : Dev nD) : V m c main_arg4 = m ((c : Thread nD τ).loc main_arg4) :=
  StableHlo.after_of_forall_not_mem (b := Proc.devRef .tc main_arg4) _ _ (List.forall_iff_forall_mem.mp (by entry_untouched))
theorem entry_main_arg5 (c : Dev nD) : V m c main_arg5 = m ((c : Thread nD τ).loc main_arg5) :=
  StableHlo.after_of_forall_not_mem (b := Proc.devRef .tc main_arg5) _ _ (List.forall_iff_forall_mem.mp (by entry_untouched))
theorem entry_main_arg6 (c : Dev nD) : V m c main_arg6 = m ((c : Thread nD τ).loc main_arg6) :=
  StableHlo.after_of_forall_not_mem (b := Proc.devRef .tc main_arg6) _ _ (List.forall_iff_forall_mem.mp (by entry_untouched))
theorem entry_main_arg7 (c : Dev nD) : V m c main_arg7 = m ((c : Thread nD τ).loc main_arg7) :=
  StableHlo.after_of_forall_not_mem (b := Proc.devRef .tc main_arg7) _ _ (List.forall_iff_forall_mem.mp (by entry_untouched))
theorem entry_main_arg8 (c : Dev nD) : V m c main_arg8 = m ((c : Thread nD τ).loc main_arg8) :=
  StableHlo.after_of_forall_not_mem (b := Proc.devRef .tc main_arg8) _ _ (List.forall_iff_forall_mem.mp (by entry_untouched))

/-! An argument that no window stages ends as launched: the operations after the region do not write it either. -/
theorem exit_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by exit_untouched)),
    Pipeline.withArrays_of_ne _ c (V0 m c) _ main_arg0 (by exact (by decide : ∀ w, Pipeline.arrRef spec0 w ≠ main_arg0))]
  exact entry_main_arg0 m c
theorem exit_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by exit_untouched)),
    Pipeline.withArrays_of_ne _ c (V0 m c) _ main_arg1 (by exact (by decide : ∀ w, Pipeline.arrRef spec0 w ≠ main_arg1))]
  exact entry_main_arg1 m c
theorem exit_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by exit_untouched)),
    Pipeline.withArrays_of_ne _ c (V0 m c) _ main_arg2 (by exact (by decide : ∀ w, Pipeline.arrRef spec0 w ≠ main_arg2))]
  exact entry_main_arg2 m c
theorem exit_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by exit_untouched)),
    Pipeline.withArrays_of_ne _ c (V0 m c) _ main_arg4 (by exact (by decide : ∀ w, Pipeline.arrRef spec0 w ≠ main_arg4))]
  exact entry_main_arg4 m c
theorem exit_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by exit_untouched)),
    Pipeline.withArrays_of_ne _ c (V0 m c) _ main_arg6 (by exact (by decide : ∀ w, Pipeline.arrRef spec0 w ≠ main_arg6))]
  exact entry_main_arg6 m c
theorem exit_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by exit_untouched)),
    Pipeline.withArrays_of_ne _ c (V0 m c) _ main_arg8 (by exact (by decide : ∀ w, Pipeline.arrRef spec0 w ≠ main_arg8))]
  exact entry_main_arg8 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, whether the point fetched it or not (where
    it was not fetched the block index has not moved): for any proof data whose array is the region-entry contents and
    whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A final state that has every array of the pipeline at what the proof data say and every other buffer as the later
    host operations leave it has the nine arguments as launched. The weight matrices `main_arg3`, `main_arg5`, `main_arg7`
    are arrays of input windows (an input window's array is never written); the other six are staged by no window. -/
theorem args_of_post (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).2 main_arg0 (Pipeline.mem_restRefs_of main_arg0 (by decide) (by decide))).trans (exit_main_arg0 m dats c),
    ((h c).2 main_arg1 (Pipeline.mem_restRefs_of main_arg1 (by decide) (by decide))).trans (exit_main_arg1 m dats c),
    ((h c).2 main_arg2 (Pipeline.mem_restRefs_of main_arg2 (by decide) (by decide))).trans (exit_main_arg2 m dats c),
    ((h c).1 1).trans (((dats 0 c).arrAt_in 1 rfl _).trans ((hA c 1).trans (entry_main_arg3 m c))),
    ((h c).2 main_arg4 (Pipeline.mem_restRefs_of main_arg4 (by decide) (by decide))).trans (exit_main_arg4 m dats c),
    ((h c).1 3).trans (((dats 0 c).arrAt_in 3 rfl _).trans ((hA c 3).trans (entry_main_arg5 m c))),
    ((h c).2 main_arg6 (Pipeline.mem_restRefs_of main_arg6 (by decide) (by decide))).trans (exit_main_arg6 m dats c),
    ((h c).1 5).trans (((dats 0 c).arrAt_in 5 rfl _).trans ((hA c 5).trans (entry_main_arg7 m c))),
    ((h c).2 main_arg8 (Pipeline.mem_restRefs_of main_arg8 (by decide) (by decide))).trans (exit_main_arg8 m dats c)⟩

/-- The frame claim's post from a run to such a final state. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => args_of_post m dats hA r h c) h

/-! ## The body's accesses: each is a whole block -/

abbrev rEdge : Rect S5000x144 := Rect.unit (s := S5000x144) ![0, 0] S5000x144.size inb_S5000x144_S5000x144_0_0
abbrev rW1 : Rect S144x128 := Rect.unit (s := S144x128) ![0, 0] S144x128.size inb_S144x128_S144x128_0_0
abbrev rB128 : Rect S1x128 := Rect.unit (s := S1x128) ![0, 0] S1x128.size inb_S1x128_S1x128_0_0
abbrev rW2 : Rect S128x128 := Rect.unit (s := S128x128) ![0, 0] S128x128.size inb_S128x128_S128x128_0_0
abbrev rW3 : Rect S128x64 := Rect.unit (s := S128x64) ![0, 0] S128x64.size inb_S128x64_S128x64_0_0
abbrev rB64 : Rect S1x64 := Rect.unit (s := S1x64) ![0, 0] S1x64.size inb_S1x64_S1x64_0_0
abbrev rMsg : Rect S5000x64 := Rect.unit (s := S5000x64) ![0, 0] S5000x64.size inb_S5000x64_S5000x64_0_0

/-! ## What the body leaves in the output window's buffer -/

/-- The output buffer after the body, from the seven input blocks: the one store's value over the whole buffer. -/
def blockOut (x0 : Vec F S5000x144 .f32) (x1 : Vec F S144x128 .f32) (x2 : Vec F S1x128 .f32) (x3 : Vec F S128x128 .f32)
    (x4 : Vec F S1x128 .f32) (x5 : Vec F S128x64 .f32) (x6 : Vec F S1x64 .f32) : Vec F S5000x64 .f32 :=
  View.canon [⟨rMsg, k0_pay1 (View.ld x0 rEdge) (View.ld x1 rW1) (View.ld x2 rB128) (View.ld x3 rW2) (View.ld x4 rB128) (View.ld x5 rW3) (View.ld x6 rB64)⟩]

/-- The one store covers the buffer. -/
theorem cover_msg (p0 : Vec F S5000x64 .f32) (y : S5000x64.Idx) :
    ∃ pc ∈ ([⟨rMsg, p0⟩] : List (View.Piece (Elt F) S5000x64 .f32)), y ∈ pc.1.set :=
  View.cover_of_tiled [⟨rMsg, p0⟩] S5000x64.size (by rfl) y

/-! ## The body's triple -/

set_option maxHeartbeats 1000000 in
/-- The body on whole staging memrefs, the seven inputs' at contents `x0 … x6` and the output's at anything, runs to the
    continuation holding the inputs' as they were and the output's at `blockOut` of them. -/
theorem sound_kernel (c : Dev nD) (E : Set ℕ) (i : grid0.Coords)
    (arg1 : Memref sig .tc .vmem S5000x144 .f32) (harg1 : arg1.IsWhole) (arg2 : Memref sig .tc .vmem S144x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x64 .f32) (harg6 : arg6.IsWhole)
    (arg7 : Memref sig .tc .vmem S1x64 .f32) (harg7 : arg7.IsWhole) (arg8 : Memref sig .tc .vmem S5000x64 .f32) (harg8 : arg8.IsWhole)
    (x0 : Vec F S5000x144 .f32) (x1 : Vec F S144x128 .f32) (x2 : Vec F S1x128 .f32) (x3 : Vec F S128x128 .f32)
    (x4 : Vec F S1x128 .f32) (x5 : Vec F S128x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (blockOut x0 x1 x2 x3 x4 x5 x6)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover_msg _)

/-! ## The pipeline's proof data -/

/-- The arrays as the region finds them; after the body at point `t` each input's buffer at its block and the output's at
    `blockOut` of the seven input blocks; the scoped rest and the generator register untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => blockOut (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t
    = blockOut (iblk m c 0 t) (iblk m c 1 t) (iblk m c 2 t) (iblk m c 3 t) (iblk m c 4 t) (iblk m c 5 t) (iblk m c 6 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so `sound_kernel` applies; the invariant and the core's
    debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what the
    proof data say (the message array: every block the 250 points wrote back) and every other unscoped buffer as the
    operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The frame claim of this program, at any float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.Frame

end
-- ==== Proof.FrameIdeal.lean ====
/-
  The program runs to its end, faults nowhere and leaves its nine argument arrays as launched; and the run says what
  every array holds at the end.

  @main is twenty-six host operations (the two endpoint gathers, their concatenation with the edge features into the
  [1250000, 144] array of edge rows, three bias vectors laid out as rows), ONE pipelined region over 250 grid points, and
  seventeen host operations after it (the scatter-mean and the residual sum). At point `t` the region hands the body the
  block of 5000 edge rows `5000·t … 5000·t + 4999` and the six whole weight and bias arrays (fetched once, at the first
  point: their block index never moves), and writes back the block of 5000 message rows the body stores. The body loads
  its seven input blocks whole, computes, and stores ONE value covering its whole output block, so what the output
  buffer holds after the body is that value: `blockOut` below, the body's arithmetic (`k0_pay1`) of the seven blocks.

  The frame is then the launch library's run of a region between two stretches of host operations
  (`Pipeline.θ_run_frame_around`): it asks for the contents each window's staging buffer holds after the body at each point
  (`dats`), the body's triple at a generic point (`sound_kernel`, `sound_body`), that the host lines before the region
  write no argument (`entry_main_argK`), and that the host lines after it write neither an argument nor an array of the
  pipeline (`tail_keeps`, `exit_main_argK`).
-/
import proofs.«404242_j76845554860742_4_alg».proof.Proof.Gen.KernelIdeal.Launch
import proofs.«404242_j76845554860742_4_alg».proof.Proof.Gen.KernelIdeal.Skeleton
import proofs.«404242_j76845554860742_4_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the twenty-six host operations
    before the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, the host operations after it: it reduces to the region
    continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch the pipeline's arrays and the buffers that bypass it only. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result buffer, which is no array of the pipeline. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)

/-- No operation of the stretch before the region writes the reference in question: each writes its own result. -/
local macro "entry_untouched" : tactic => `(tactic| (
  simp only [hostOps0, List.flatten_cons, List.flatten_nil, List.append_nil, List.cons_append,
    List.nil_append, List.Forall, StableHlo.nullary_writes, StableHlo.unary_writes, StableHlo.binary_writes,
    StableHlo.ternary_writes, StableHlo.nary_writes, StableHlo.reshape_writes, Finset.mem_singleton]
  repeat' apply And.intro
  all_goals exact StableHlo.devRef_ne_of_ne (by decide)))
/-- The same for the stretch after the region. -/
local macro "exit_untouched" : tactic => `(tactic| (
  simp only [hostOps1, List.flatten_cons, List.flatten_nil, List.append_nil, List.cons_append,
    List.nil_append, List.Forall, StableHlo.nullary_writes, StableHlo.unary_writes, StableHlo.binary_writes,
    StableHlo.ternary_writes, StableHlo.nary_writes, StableHlo.reshape_writes, Finset.mem_singleton]
  repeat' apply And.intro
  all_goals exact StableHlo.devRef_ne_of_ne (by decide)))

/-! The region finds every argument as launched. -/
theorem entry_main_arg0 (c : Dev nD) : V m c main_arg0 = m ((c : Thread nD τ).loc main_arg0) :=
  StableHlo.after_of_forall_not_mem (b := Proc.devRef .tc main_arg0) _ _ (List.forall_iff_forall_mem.mp (by entry_untouched))
theorem entry_main_arg1 (c : Dev nD) : V m c main_arg1 = m ((c : Thread nD τ).loc main_arg1) :=
  StableHlo.after_of_forall_not_mem (b := Proc.devRef .tc main_arg1) _ _ (List.forall_iff_forall_mem.mp (by entry_untouched))
theorem entry_main_arg2 (c : Dev nD) : V m c main_arg2 = m ((c : Thread nD τ).loc main_arg2) :=
  StableHlo.after_of_forall_not_mem (b := Proc.devRef .tc main_arg2) _ _ (List.forall_iff_forall_mem.mp (by entry_untouched))
theorem entry_main_arg3 (c : Dev nD) : V m c main_arg3 = m ((c : Thread nD τ).loc main_arg3) :=
  StableHlo.after_of_forall_not_mem (b := Proc.devRef .tc main_arg3) _ _ (List.forall_iff_forall_mem.mp (by entry_untouched))
theorem entry_main_arg4 (c : Dev nD) : V m c main_arg4 = m ((c : Thread nD τ).loc main_arg4) :=
  StableHlo.after_of_forall_not_mem (b := Proc.devRef .tc main_arg4) _ _ (List.forall_iff_forall_mem.mp (by entry_untouched))
theorem entry_main_arg5 (c : Dev nD) : V m c main_arg5 = m ((c : Thread nD τ).loc main_arg5) :=
  StableHlo.after_of_forall_not_mem (b := Proc.devRef .tc main_arg5) _ _ (List.forall_iff_forall_mem.mp (by entry_untouched))
theorem entry_main_arg6 (c : Dev nD) : V m c main_arg6 = m ((c : Thread nD τ).loc main_arg6) :=
  StableHlo.after_of_forall_not_mem (b := Proc.devRef .tc main_arg6) _ _ (List.forall_iff_forall_mem.mp (by entry_untouched))
theorem entry_main_arg7 (c : Dev nD) : V m c main_arg7 = m ((c : Thread nD τ).loc main_arg7) :=
  StableHlo.after_of_forall_not_mem (b := Proc.devRef .tc main_arg7) _ _ (List.forall_iff_forall_mem.mp (by entry_untouched))
theorem entry_main_arg8 (c : Dev nD) : V m c main_arg8 = m ((c : Thread nD τ).loc main_arg8) :=
  StableHlo.after_of_forall_not_mem (b := Proc.devRef .tc main_arg8) _ _ (List.forall_iff_forall_mem.mp (by entry_untouched))

/-! An argument that no window stages ends as launched: the operations after the region do not write it either. -/
theorem exit_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by exit_untouched)),
    Pipeline.withArrays_of_ne _ c (V0 m c) _ main_arg0 (by exact (by decide : ∀ w, Pipeline.arrRef spec0 w ≠ main_arg0))]
  exact entry_main_arg0 m c
theorem exit_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by exit_untouched)),
    Pipeline.withArrays_of_ne _ c (V0 m c) _ main_arg1 (by exact (by decide : ∀ w, Pipeline.arrRef spec0 w ≠ main_arg1))]
  exact entry_main_arg1 m c
theorem exit_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by exit_untouched)),
    Pipeline.withArrays_of_ne _ c (V0 m c) _ main_arg2 (by exact (by decide : ∀ w, Pipeline.arrRef spec0 w ≠ main_arg2))]
  exact entry_main_arg2 m c
theorem exit_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by exit_untouched)),
    Pipeline.withArrays_of_ne _ c (V0 m c) _ main_arg4 (by exact (by decide : ∀ w, Pipeline.arrRef spec0 w ≠ main_arg4))]
  exact entry_main_arg4 m c
theorem exit_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by exit_untouched)),
    Pipeline.withArrays_of_ne _ c (V0 m c) _ main_arg6 (by exact (by decide : ∀ w, Pipeline.arrRef spec0 w ≠ main_arg6))]
  exact entry_main_arg6 m c
theorem exit_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by exit_untouched)),
    Pipeline.withArrays_of_ne _ c (V0 m c) _ main_arg8 (by exact (by decide : ∀ w, Pipeline.arrRef spec0 w ≠ main_arg8))]
  exact entry_main_arg8 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, whether the point fetched it or not (where
    it was not fetched the block index has not moved): for any proof data whose array is the region-entry contents and
    whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A final state that has every array of the pipeline at what the proof data say and every other buffer as the later
    host operations leave it has the nine arguments as launched. The weight matrices `main_arg3`, `main_arg5`, `main_arg7`
    are arrays of input windows (an input window's array is never written); the other six are staged by no window. -/
theorem args_of_post (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).2 main_arg0 (Pipeline.mem_restRefs_of main_arg0 (by decide) (by decide))).trans (exit_main_arg0 m dats c),
    ((h c).2 main_arg1 (Pipeline.mem_restRefs_of main_arg1 (by decide) (by decide))).trans (exit_main_arg1 m dats c),
    ((h c).2 main_arg2 (Pipeline.mem_restRefs_of main_arg2 (by decide) (by decide))).trans (exit_main_arg2 m dats c),
    ((h c).1 1).trans (((dats 0 c).arrAt_in 1 rfl _).trans ((hA c 1).trans (entry_main_arg3 m c))),
    ((h c).2 main_arg4 (Pipeline.mem_restRefs_of main_arg4 (by decide) (by decide))).trans (exit_main_arg4 m dats c),
    ((h c).1 3).trans (((dats 0 c).arrAt_in 3 rfl _).trans ((hA c 3).trans (entry_main_arg5 m c))),
    ((h c).2 main_arg6 (Pipeline.mem_restRefs_of main_arg6 (by decide) (by decide))).trans (exit_main_arg6 m dats c),
    ((h c).1 5).trans (((dats 0 c).arrAt_in 5 rfl _).trans ((hA c 5).trans (entry_main_arg7 m c))),
    ((h c).2 main_arg8 (Pipeline.mem_restRefs_of main_arg8 (by decide) (by decide))).trans (exit_main_arg8 m dats c)⟩

/-- The frame claim's post from a run to such a final state. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => args_of_post m dats hA r h c) h

/-! ## The body's accesses: each is a whole block -/

abbrev rEdge : Rect S5000x144 := Rect.unit (s := S5000x144) ![0, 0] S5000x144.size inb_S5000x144_S5000x144_0_0
abbrev rW1 : Rect S144x128 := Rect.unit (s := S144x128) ![0, 0] S144x128.size inb_S144x128_S144x128_0_0
abbrev rB128 : Rect S1x128 := Rect.unit (s := S1x128) ![0, 0] S1x128.size inb_S1x128_S1x128_0_0
abbrev rW2 : Rect S128x128 := Rect.unit (s := S128x128) ![0, 0] S128x128.size inb_S128x128_S128x128_0_0
abbrev rW3 : Rect S128x64 := Rect.unit (s := S128x64) ![0, 0] S128x64.size inb_S128x64_S128x64_0_0
abbrev rB64 : Rect S1x64 := Rect.unit (s := S1x64) ![0, 0] S1x64.size inb_S1x64_S1x64_0_0
abbrev rMsg : Rect S5000x64 := Rect.unit (s := S5000x64) ![0, 0] S5000x64.size inb_S5000x64_S5000x64_0_0

/-! ## What the body leaves in the output window's buffer -/

/-- The output buffer after the body, from the seven input blocks: the one store's value over the whole buffer. -/
def blockOut (x0 : Vec F S5000x144 .f32) (x1 : Vec F S144x128 .f32) (x2 : Vec F S1x128 .f32) (x3 : Vec F S128x128 .f32)
    (x4 : Vec F S1x128 .f32) (x5 : Vec F S128x64 .f32) (x6 : Vec F S1x64 .f32) : Vec F S5000x64 .f32 :=
  View.canon [⟨rMsg, k0_pay1 (View.ld x0 rEdge) (View.ld x1 rW1) (View.ld x2 rB128) (View.ld x3 rW2) (View.ld x4 rB128) (View.ld x5 rW3) (View.ld x6 rB64)⟩]

/-- The one store covers the buffer. -/
theorem cover_msg (p0 : Vec F S5000x64 .f32) (y : S5000x64.Idx) :
    ∃ pc ∈ ([⟨rMsg, p0⟩] : List (View.Piece (Elt F) S5000x64 .f32)), y ∈ pc.1.set :=
  View.cover_of_tiled [⟨rMsg, p0⟩] S5000x64.size (by rfl) y

/-! ## The body's triple -/

set_option maxHeartbeats 1000000 in
/-- The body on whole staging memrefs, the seven inputs' at contents `x0 … x6` and the output's at anything, runs to the
    continuation holding the inputs' as they were and the output's at `blockOut` of them. -/
theorem sound_kernel (c : Dev nD) (E : Set ℕ) (i : grid0.Coords)
    (arg1 : Memref sig .tc .vmem S5000x144 .f32) (harg1 : arg1.IsWhole) (arg2 : Memref sig .tc .vmem S144x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x64 .f32) (harg6 : arg6.IsWhole)
    (arg7 : Memref sig .tc .vmem S1x64 .f32) (harg7 : arg7.IsWhole) (arg8 : Memref sig .tc .vmem S5000x64 .f32) (harg8 : arg8.IsWhole)
    (x0 : Vec F S5000x144 .f32) (x1 : Vec F S144x128 .f32) (x2 : Vec F S1x128 .f32) (x3 : Vec F S128x128 .f32)
    (x4 : Vec F S1x128 .f32) (x5 : Vec F S128x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (blockOut x0 x1 x2 x3 x4 x5 x6)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover_msg _)

/-! ## The pipeline's proof data -/

/-- The arrays as the region finds them; after the body at point `t` each input's buffer at its block and the output's at
    `blockOut` of the seven input blocks; the scoped rest and the generator register untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => blockOut (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t
    = blockOut (iblk m c 0 t) (iblk m c 1 t) (iblk m c 2 t) (iblk m c 3 t) (iblk m c 4 t) (iblk m c 5 t) (iblk m c 6 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so `sound_kernel` applies; the invariant and the core's
    debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what the
    proof data say (the message array: every block the 250 points wrote back) and every other unscoped buffer as the
    operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The frame claim of this program, at any float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Frame

end
-- ==== Proof.Message.lean ====
/-
  One edge's message, as a function of that edge's feature row alone.

  An edge with feature row `e : Fin 144 → EReal` (the source node's 64 features, the target node's 64, the edge's own 16) is
  sent through three affine layers with a rectifier after the first two:

      h₁ k₁ = max (∑ k₀, e k₀ · W₁ (k₀, k₁) + b₁ k₁) 0          (128 hidden units)
      h₂ k₂ = max (∑ k₁, h₁ k₁ · W₂ (k₁, k₂) + b₂ k₂) 0         (128 hidden units)
      msg j = ∑ k₂, h₂ k₂ · W₃ (k₂, j) + b₃ j                     (64 outputs)

  over the extended reals. The zero of the rectifier is kept as the zero word it is written with in both programs, so it is
  never evaluated. `messages` is the array of all 1,250,000 messages: row `r` is `message` of row `r` of the edge-feature
  array; nothing couples two rows.
-/
import Idealize.ShloMosaic.PureOps.Ideal
import Idealize.ShloMosaic.PureOps.Ideal.Laws
import Idealize.ShloMosaic.Lib.ValueIdx

noncomputable section

open scoped BigOperators

namespace Cert.EdgeMessage

open Idealize.ShloMosaic Idealize.ShloMosaic.ValueIdx

/-- One affine layer applied to a row: `(e · W + b) j = ∑ k, e k · W (k, j) + b j`. -/
def affine {K N : Nat} (e : Fin K → EReal) (W : (⟨2, ![K, N]⟩ : Shape).Idx → EReal) (b : Fin N → EReal) (j : Fin N) : EReal :=
  (∑ k : Fin K, e k * W (ix2 k j)) + b j

/-- The rectifier: the larger of a value and the value of the zero word. -/
def relu (x : EReal) : EReal := max x (Ideal.ofBits .f32 0x00000000#32)

/-- The message of one edge from its feature row. -/
def message (e : Fin 144 → EReal)
    (W1 : (⟨2, ![144, 128]⟩ : Shape).Idx → EReal) (b1 : Fin 128 → EReal)
    (W2 : (⟨2, ![128, 128]⟩ : Shape).Idx → EReal) (b2 : Fin 128 → EReal)
    (W3 : (⟨2, ![128, 64]⟩ : Shape).Idx → EReal) (b3 : Fin 64 → EReal) (j : Fin 64) : EReal :=
  affine (fun k2 => relu (affine (fun k1 => relu (affine e W1 b1 k1)) W2 b2 k2)) W3 b3 j

/-- All messages: entry `(r, j)` is output `j` of the message of row `r` of `E`. -/
def messages (E : (⟨2, ![1250000, 144]⟩ : Shape).Idx → EReal)
    (W1 : (⟨2, ![144, 128]⟩ : Shape).Idx → EReal) (b1 : Fin 128 → EReal)
    (W2 : (⟨2, ![128, 128]⟩ : Shape).Idx → EReal) (b2 : Fin 128 → EReal)
    (W3 : (⟨2, ![128, 64]⟩ : Shape).Idx → EReal) (b3 : Fin 64 → EReal) :
    (⟨2, ![1250000, 64]⟩ : Shape).Idx → EReal :=
  fun i => message (fun k => E (ix2 (i 0) k)) W1 b1 W2 b2 W3 b3 (i 1)

theorem messages_apply (E : (⟨2, ![1250000, 144]⟩ : Shape).Idx → EReal)
    (W1 : (⟨2, ![144, 128]⟩ : Shape).Idx → EReal) (b1 : Fin 128 → EReal)
    (W2 : (⟨2, ![128, 128]⟩ : Shape).Idx → EReal) (b2 : Fin 128 → EReal)
    (W3 : (⟨2, ![128, 64]⟩ : Shape).Idx → EReal) (b3 : Fin 64 → EReal) (r : Fin 1250000) (j : Fin 64) :
    messages E W1 b1 W2 b2 W3 b3 (ix2 r j) = message (fun k => E (ix2 r k)) W1 b1 W2 b2 W3 b3 j := rfl

end Cert.EdgeMessage

end
-- ==== Proof.Glue.lean ====
/-
  The host arithmetic both programs share, as two functions of the argument arrays.

  `edgeRows x ei ef` is the [1250000, 144] array of edge feature rows: row `r` is the 64 features of edge `r`'s source node,
  the 64 features of its target node, and the edge's own 16 features. The two node indices are rows 0 and 1 of the
  edge list `ei`; an index below zero counts from the end (50000 is added to it), and the gather reads the node array
  at the index so obtained.

  `scatterMean x ei msg` is the node update: for every node the sum of the messages of the edges that target it, divided
  by the number of such edges or by 1 if there is none, added to the node's features. The sums are scatter-additions
  into zero arrays at the target indices (row 1 of the edge list, as given).

  Both programs compute `scatterMean x ei (the messages of edgeRows x ei ef)`; they differ only in how the messages are
  computed from the rows, and this module lets each side's host operations be carried as these two functions, never
  opened.
-/
import proofs.«404242_j76845554860742_4_alg».proof.KernelIdeal
import proofs.«404242_j76845554860742_4_alg».proof.Proof.Gen.KernelIdeal

noncomputable section

namespace Cert.Glue

open Cert.KernelIdeal Cert.KernelIdeal.Gen Idealize.ShloMosaic

variable {F : FTy → Type} [FloatOps F]

/-- Row 0 of the edge list: each edge's source node. -/
def sources (ei : (⟨S2x1250000, .i32⟩ : BufTy).Contents (Elt F)) : (⟨S1250000, .i32⟩ : BufTy).Contents (Elt F) :=
  shapeCast S1250000 (extractStridedSlice S1x1250000 ![0, 0] ei slices_S2x1250000_S1x1250000_0_0) shapeCasts_S1x1250000_S1250000

/-- Row 1 of the edge list: each edge's target node. -/
def targets (ei : (⟨S2x1250000, .i32⟩ : BufTy).Contents (Elt F)) : (⟨S1250000, .i32⟩ : BufTy).Contents (Elt F) :=
  shapeCast S1250000 (extractStridedSlice S1x1250000 ![1, 0] ei slices_S2x1250000_S1x1250000_1_0) shapeCasts_S1x1250000_S1250000

/-- Node indices with a negative one counted from the end, as a column of gather start indices. -/
def wrapped (v : (⟨S1250000, .i32⟩ : BufTy).Contents (Elt F)) : (⟨S1250000x1, .i32⟩ : BufTy).Contents (Elt F) :=
  broadcastInDim S1250000x1 ![0] bcast_S1250000_S1250000x1_0
    (select (cmpi .slt v (broadcastInDim S1250000 ![] bcast_S_S1250000 (constantI S_ 32 0#32)))
      (addi v (broadcastInDim S1250000 ![] bcast_S_S1250000 (constantI S_ 32 50000#32))) v)

/-- The edge feature rows: source features, target features, edge features, side by side. -/
def edgeRows (x : (⟨S50000x64, .f32⟩ : BufTy).Contents (Elt F)) (ei : (⟨S2x1250000, .i32⟩ : BufTy).Contents (Elt F))
    (ef : (⟨S1250000x16, .f32⟩ : BufTy).Contents (Elt F)) : (⟨S1250000x144, .f32⟩ : BufTy).Contents (Elt F) :=
  concatenate S1250000x144 1
    [⟨S1250000x64, Host.gather gather_S50000x64_S1250000x1_S1250000x64_1_0_n_n_0_1_164 x (wrapped (sources ei))⟩,
     ⟨S1250000x64, Host.gather gather_S50000x64_S1250000x1_S1250000x64_1_0_n_n_0_1_164 x (wrapped (targets ei))⟩,
     ⟨S1250000x16, ef⟩]
    concatenates_S1250000x64_S1250000x64_S1250000x16_S1250000x144_d1

/-- The node features plus the mean of the messages arriving at each node. -/
def scatterMean (x : (⟨S50000x64, .f32⟩ : BufTy).Contents (Elt F)) (ei : (⟨S2x1250000, .i32⟩ : BufTy).Contents (Elt F))
    (msg : (⟨S1250000x64, .f32⟩ : BufTy).Contents (Elt F)) : (⟨S50000x64, .f32⟩ : BufTy).Contents (Elt F) :=
  addf x (Host.divf
    (Host.scatterAdd scatter_S50000x64_S1250000x1_S1250000x64_1_0_0_1
      (broadcastInDim S50000x64 ![] bcast_S_S50000x64 (constant S_ .f32 0x00000000#32))
      (broadcastInDim S1250000x1 ![0] bcast_S1250000_S1250000x1_0 (targets ei)) msg)
    (broadcastInDim S50000x64 ![0, 1] bcast_S50000x1_S50000x64_0_1
      (broadcastInDim S50000x1 ![0] bcast_S50000_S50000x1_0
        (maximumf
          (Host.scatterAdd scatter_S50000_S1250000x1_S1250000_n_0_0_1
            (broadcastInDim S50000 ![] bcast_S_S50000 (constant S_ .f32 0x00000000#32))
            (broadcastInDim S1250000x1 ![0] bcast_S1250000_S1250000x1_0 (targets ei))
            (broadcastInDim S1250000 ![] bcast_S_S1250000 (constant S_ .f32 0x3F800000#32)))
          (broadcastInDim S50000 ![] bcast_S_S50000 (constant S_ .f32 0x3F800000#32))))))

end Cert.Glue

end
-- ==== Proof.LibNary3.lean ====
/-
  A host operation over a literal family of three references (a `stablehlo.concatenate` of three operands), its result
  with each operand's contents at its own reference. Independent of any program.
-/
import Idealize.ShloMosaic.Lib.StableHlo.Run

noncomputable section

namespace Cert.LibNary3

open Idealize.ShloMosaic Idealize.ShloMosaic.StableHlo

variable {τ : Topo} {sig : RefSig} {Val : EltTy → Type} {x a b y : Ref sig .tc}

/-- `nary` over a literal family of three references: at its own result buffer it leaves its function's value at the
    three operands' contents, each read AT ITS OWN REFERENCE — `Fin.cons (F ↑x) (Fin.cons (F ↑a) (Fin.cons (F ↑b) _))` in
    place of `fun k => F ↑(![x, a, b] k)` —, so that the operands' contents can be rewritten further (under the binder
    the reference `![x, a, b] k` is no literal). -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Cert.LibNary3

end
-- ==== Proof.LibKernelHost.lean ====
import Idealize.ShloMosaic.Lib.ValueIdx
import Idealize.ShloMosaic.Lib.Pipeline.Value
import Idealize.ShloMosaic.Lib.ValueLayout
import Idealize.ShloMosaic.Lib.KernelVsHost
import Idealize.ShloMosaic.Lib.IdealHost
import Idealize.ShloMosaic.PureOps.Ideal.Laws
import Idealize.ShloMosaic.PureOps.Reduce

/-! One value, two spellings, at the ideal values and at rank 2: a matrix product into a zero accumulator whose right
operand is contracted on its last axis is the host's product with the transposed right operand (both are the sum over
`k` of `l (a, k) * r (b, k)`); a row maximum or row sum is the host's reduction; the logistic is
`1 / (1 + exp (−x))`; a vector cast to one row is its broadcast along axis 1; a one-entry vector cast to a 1×1 matrix and
broadcast along a row is the host's two broadcasts of it. Also the two products, a bias row and a row broadcast read at
an index by coordinates. -/

noncomputable section

namespace Cert.LibBridge

open Idealize.ShloMosaic Idealize.ShloMosaic.ValueIdx

/-! ## The two contraction sums over `Fin K` -/

/-- Dimension numbers of a product `M×K` by `N×K`: both operands contracted on their last axis, no batch axis. -/
abbrev DimsT {M K N : Nat} (d : DotDims ⟨2, ![M, K]⟩ ⟨2, ![N, K]⟩ ⟨2, ![M, N]⟩) : Prop :=
  d.lhsContracting = [1] ∧ d.rhsContracting = [1] ∧ d.lhsNonContracting = [0] ∧ d.rhsNonContracting = [0] ∧
    d.lhsBatch = [] ∧ d.rhsBatch = []

/-- Dimension numbers of a plain product `M×K` by `K×N`, no batch axis. -/
abbrev DimsPlain {M K N : Nat} (d : DotDims ⟨2, ![M, K]⟩ ⟨2, ![K, N]⟩ ⟨2, ![M, N]⟩) : Prop :=
  d.lhsContracting = [1] ∧ d.rhsContracting = [0] ∧ d.lhsNonContracting = [0] ∧ d.rhsNonContracting = [1] ∧
    d.lhsBatch = [] ∧ d.rhsBatch = []

/-- The contraction sum of a product whose right operand is contracted on its LAST axis (`M×K` by `N×K`), at `(a, b)`:
    the sum over `k` of `l (a, k) * r (b, k)`. -/
theorem dot_sum_T {M K N : Nat} (d : DotDims ⟨2, ![M, K]⟩ ⟨2, ![N, K]⟩ ⟨2, ![M, N]⟩) (hd : DimsT d)
    (l : (⟨2, ![M, K]⟩ : Shape).Idx → EReal) (r : (⟨2, ![N, K]⟩ : Shape).Idx → EReal) (a : Fin M) (b : Fin N) :
    ∑ k : d.contr.Idx, l (d.lhsIdx (ix2 a b) k) * r (d.rhsIdx (ix2 a b) k) = ∑ k : Fin K, l (ix2 a k) * r (ix2 b k) := by
  obtain ⟨hlc, hrc, hln, hrn, hlb, hrb⟩ := hd
  obtain ⟨lc, rc, ln, rn, lb, rb, wf⟩ := d
  simp only at hlc hrc hln hrn hlb hrb
  subst hlc hrc hln hrn hlb hrb
  generalize hD : (⟨[1], [1], [0], [0], [], [], wf⟩ : DotDims ⟨2, ![M, K]⟩ ⟨2, ![N, K]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun i _ => ?_
  have hl : D.lhsIdx (ix2 a b) ((contrEquiv1 D K hr hs).symm i) = ix2 a i :=
    Shape.idx_ext₂ (by subst hD; rfl)
      ((D.lhsIdx_val_of_single (by subst hD; rfl) _ _).trans (contrEquiv1_symm_val D K hr hs i))
  have hrr : D.rhsIdx (ix2 a b) ((contrEquiv1 D K hr hs).symm i) = ix2 b i :=
    Shape.idx_ext₂ (by subst hD; rfl)
      ((D.rhsIdx_val_of_single (by subst hD; rfl) _ _).trans (contrEquiv1_symm_val D K hr hs i))
  rw [hl, hrr]

/-- The contraction sum of a plain product (`M×K` by `K×N`), at `(a, b)`: the sum over `k` of `l (a, k) * r (k, b)`. -/
theorem dot_sum_plain {M K N : Nat} (d : DotDims ⟨2, ![M, K]⟩ ⟨2, ![K, N]⟩ ⟨2, ![M, N]⟩) (hd : DimsPlain d)
    (l : (⟨2, ![M, K]⟩ : Shape).Idx → EReal) (r : (⟨2, ![K, N]⟩ : Shape).Idx → EReal) (a : Fin M) (b : Fin N) :
    ∑ k : d.contr.Idx, l (d.lhsIdx (ix2 a b) k) * r (d.rhsIdx (ix2 a b) k) = ∑ k : Fin K, l (ix2 a k) * r (ix2 k b) := by
  obtain ⟨hlc, hrc, hln, hrn, hlb, hrb⟩ := hd
  obtain ⟨lc, rc, ln, rn, lb, rb, wf⟩ := d
  simp only at hlc hrc hln hrn hlb hrb
  subst hlc hrc hln hrn hlb hrb
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun i _ => ?_
  have hl : D.lhsIdx (ix2 a b) ((contrEquiv1 D K hr hs).symm i) = ix2 a i :=
    Shape.idx_ext₂ (by subst hD; rfl)
      ((D.lhsIdx_val_of_single (by subst hD; rfl) _ _).trans (contrEquiv1_symm_val D K hr hs i))
  have hrr : D.rhsIdx (ix2 a b) ((contrEquiv1 D K hr hs).symm i) = ix2 i b :=
    Shape.idx_ext₂ ((D.rhsIdx_val_of_single (by subst hD; rfl) _ _).trans (contrEquiv1_symm_val D K hr hs i))
      (by subst hD; rfl)
  rw [hl, hrr]

/-! ## The two products read at an index -/

/-- A product into the zero splat, right operand contracted on its last axis, at `(a, b)`. -/
theorem matmulT_apply {M K N : Nat} (d : DotDims ⟨2, ![M, K]⟩ ⟨2, ![N, K]⟩ ⟨2, ![M, N]⟩) (hd : DimsT d)
    (prec : Option ContractPrecision) (l : FVec Ideal ⟨2, ![M, K]⟩ .f32) (r : FVec Ideal ⟨2, ![N, K]⟩ .f32) (a : Fin M) (b : Fin N) :
    matmul d prec l r (constant ⟨2, ![M, N]⟩ .f32 0x00000000#32) (ix2 a b) = ∑ k : Fin K, l (ix2 a k) * r (ix2 b k) :=
  (Ideal.matmul_constant_zero_apply d prec l r (ix2 a b)).trans (dot_sum_T d hd l r a b)

/-- The host's plain product at `(a, b)`. -/
theorem dotGeneral_plain_apply {M K N : Nat} (d : DotDims ⟨2, ![M, K]⟩ ⟨2, ![K, N]⟩ ⟨2, ![M, N]⟩) (hd : DimsPlain d)
    (prec : Option ContractPrecision) (l : FVec Ideal ⟨2, ![M, K]⟩ .f32) (r : FVec Ideal ⟨2, ![K, N]⟩ .f32) (a : Fin M) (b : Fin N) :
    Host.dotGeneral d prec l r (ix2 a b) = ∑ k : Fin K, l (ix2 a k) * r (ix2 k b) :=
  (Ideal.dotGeneral_apply d prec .single l r (ix2 a b)).trans (dot_sum_plain d hd l r a b)

/-- The host's product with a transposed right operand, at `(a, b)`. -/
theorem dotGeneral_transpose_apply {M K N : Nat} (d : DotDims ⟨2, ![M, K]⟩ ⟨2, ![K, N]⟩ ⟨2, ![M, N]⟩) (hd : DimsPlain d)
    (prec : Option ContractPrecision) (ht : (⟨2, ![N, K]⟩ : Shape).Transposes [1, 0] ⟨2, ![K, N]⟩)
    (l : FVec Ideal ⟨2, ![M, K]⟩ .f32) (r : FVec Ideal ⟨2, ![N, K]⟩ .f32) (a : Fin M) (b : Fin N) :
    Host.dotGeneral d prec l (transpose ⟨2, ![K, N]⟩ [1, 0] r ht) (ix2 a b) = ∑ k : Fin K, l (ix2 a k) * r (ix2 b k) := by
  rw [dotGeneral_plain_apply d hd]
  exact Finset.sum_congr rfl fun k _ => by rw [transpose_ix2_apply]

/-- A product into the zero splat against a weight contracted on its last axis IS the host's product with the
    transposed weight. -/
theorem matmulT_eq_dotGeneral_transpose {M K N : Nat} (dk : DotDims ⟨2, ![M, K]⟩ ⟨2, ![N, K]⟩ ⟨2, ![M, N]⟩) (hk : DimsT dk)
    (dr : DotDims ⟨2, ![M, K]⟩ ⟨2, ![K, N]⟩ ⟨2, ![M, N]⟩) (hr : DimsPlain dr) (prec prec' : Option ContractPrecision)
    (ht : (⟨2, ![N, K]⟩ : Shape).Transposes [1, 0] ⟨2, ![K, N]⟩)
    (l : FVec Ideal ⟨2, ![M, K]⟩ .f32) (r : FVec Ideal ⟨2, ![N, K]⟩ .f32) :
    matmul dk prec l r (constant ⟨2, ![M, N]⟩ .f32 0x00000000#32)
      = Host.dotGeneral dr prec' l (transpose ⟨2, ![K, N]⟩ [1, 0] r ht) := by
  funext j
  obtain ⟨a, b, rfl⟩ : ∃ (a : Fin M) (b : Fin N), j = ix2 a b := ⟨j 0, j 1, eq_ix2 j⟩
  rw [matmulT_apply dk hk, dotGeneral_transpose_apply dr hr]

/-! ## Elementwise operations -/

section Elementwise
variable {s : Shape} {φ : FTy}

/-- The kernel's exponential is the host's. -/
theorem exp_eq_hostExp (x : FVec Ideal s φ) : exp x = Host.exp x := rfl
/-- The kernel's hyperbolic tangent is the host's. -/
theorem tanh_eq_hostTanh (x : FVec Ideal s φ) : tanh x = Host.tanh x := rfl
/-- The kernel's quotient is the host's. -/
theorem divf_eq_hostDivf (x y : FVec Ideal s φ) : divf x y = Host.divf x y := rfl

/-- A scalar splat is the host's broadcast of the rank-0 constant. -/
theorem broadcast_eq_broadcastInDim_constant {t : Shape} (h : (⟨0, ![]⟩ : Shape).BroadcastsInDim t ![]) (w : BitVec φ.bits) :
    broadcast t (Scalar.ofBits (F := Ideal) φ w) = broadcastInDim t ![] h (constant (F := Ideal) ⟨0, ![]⟩ φ w) :=
  (broadcastInDim_constant (F := Ideal) (s := ⟨0, ![]⟩) (t := t) ![] h w).symm

/-- The logistic is `1 / (1 + exp (−x))`, in the host's operations. -/
theorem logistic_eq (h : (⟨0, ![]⟩ : Shape).BroadcastsInDim s ![]) (x : FVec Ideal s .f32) :
    logistic x = Host.divf (broadcastInDim s ![] h (constant (F := Ideal) ⟨0, ![]⟩ .f32 0x3F800000#32))
      (addf (broadcastInDim s ![] h (constant (F := Ideal) ⟨0, ![]⟩ .f32 0x3F800000#32)) (Host.exp (Host.negf x))) := by
  funext j
  show Ideal.logistic (x j) = Ideal.div (Ideal.ofBits .f32 0x3F800000#32) (Ideal.ofBits .f32 0x3F800000#32 + Ideal.exp (-(x j)))
  rw [Ideal.ofBits_one_f32]
  rfl

end Elementwise

/-! ## Reductions over one axis -/

section Reductions
variable {s t u : Shape} {φ : FTy} {a : Fin s.rank}

/-- A kernel's maximum over one axis from its accumulator's value is the host's reduce with a maximum body from the same
    constant. -/
theorem multiReduction_maximumf_eq_hostReduce (src : FVec Ideal s φ) (acc : BitVec φ.bits) (h : s.Reduces [a] t)
    (hφ : FKind.Formats φ) (hacc : acc = FKind.maximumf.neutral φ hφ) (h' : s.ReducesTo [a] t) (hu : 0 < u.numel) :
    multiReduction .maximumf [a] t src acc h hφ hacc
      = Host.reduce FloatOps.maximumf src (constant (F := Ideal) u φ acc) h' hu := by
  funext j
  rw [Ideal.multiReduction_maximumf_single src acc h hφ hacc j, Host.reduce_eq_fold_single FloatOps.maximumf src _ h' h hu j]
  rfl

end Reductions

/-! ## Layout -/

section Layout
variable {α : Type}

/-- A vector of `n` entries cast to one row is its broadcast along axis 1. -/
theorem shapeCast_row_eq_broadcastInDim {n : Nat} (x : (⟨1, ![n]⟩ : Shape).Idx → α)
    (h1 : (⟨1, ![n]⟩ : Shape).ShapeCasts ⟨2, ![1, n]⟩) (hd : (⟨1, ![n]⟩ : Shape).BroadcastsInDim ⟨2, ![1, n]⟩ ![1]) :
    shapeCast ⟨2, ![1, n]⟩ x h1 = broadcastInDim ⟨2, ![1, n]⟩ ![1] hd x := by
  funext i
  obtain ⟨p, c, rfl⟩ : ∃ (p : Fin 1) (c : Fin n), i = ix2 p c := ⟨i 0, i 1, eq_ix2 i⟩
  rw [shapeCast_a_1a_apply]
  refine (broadcastInDim_apply ![1] hd x (ix2 p c) (ix1 c) fun ax => ?_).symm
  match ax with
  | ⟨0, _⟩ =>
    show c.val = if n = 1 then 0 else c.val
    split
    · have := c.isLt; omega
    · rfl

/-- A vector broadcast along axis 1 of a one-row matrix, at `(p, c)`. -/
theorem broadcastInDim_row_apply {n : Nat} (x : (⟨1, ![n]⟩ : Shape).Idx → α)
    (hd : (⟨1, ![n]⟩ : Shape).BroadcastsInDim ⟨2, ![1, n]⟩ ![1]) (p : Fin 1) (c : Fin n) :
    broadcastInDim ⟨2, ![1, n]⟩ ![1] hd x (ix2 p c) = x (ix1 c) := by
  refine broadcastInDim_apply ![1] hd x (ix2 p c) (ix1 c) fun ax => ?_
  match ax with
  | ⟨0, _⟩ =>
    show c.val = if n = 1 then 0 else c.val
    split
    · have := c.isLt; omega
    · rfl

/-- Every index of the one-entry vector shape is the same. -/
theorem idx1_one (j k : (⟨1, ![1]⟩ : Shape).Idx) : j = k := by
  have hj : (j 0).val < 1 := (j 0).isLt
  have hk : (k 0).val < 1 := (k 0).isLt
  rw [eq_ix1 j, eq_ix1 k]
  exact congrArg ix1 (Fin.ext (by omega))

/-- A one-entry vector cast to a 1×1 matrix and broadcast along a row is the host's two broadcasts of it. -/
theorem broadcastTo_shapeCast_one_eq {n : Nat} (z : (⟨1, ![1]⟩ : Shape).Idx → α)
    (hsc : (⟨1, ![1]⟩ : Shape).ShapeCasts ⟨2, ![1, 1]⟩) (hb : (⟨2, ![1, 1]⟩ : Shape).Broadcasts ⟨2, ![1, n]⟩)
    (h1 : (⟨1, ![1]⟩ : Shape).BroadcastsInDim ⟨2, ![1, 1]⟩ ![0])
    (h2 : (⟨2, ![1, 1]⟩ : Shape).BroadcastsInDim ⟨2, ![1, n]⟩ ![0, 1]) :
    broadcastTo ⟨2, ![1, n]⟩ (shapeCast ⟨2, ![1, 1]⟩ z hsc) hb
      = broadcastInDim ⟨2, ![1, n]⟩ ![0, 1] h2 (broadcastInDim ⟨2, ![1, 1]⟩ ![0] h1 z) := by
  funext j
  unfold broadcastTo shapeCast broadcastInDim
  exact congrArg z (idx1_one _ _)

end Layout

end Cert.LibBridge

end
-- ==== Proof.KernelValue.lean ====
/-
  What the idealized kernel's program computes: the scatter-mean of the edge messages.

  The region's output array (the [1250000, 64] message array) is written back block by block: point `t` writes rows
  `5000·t … 5000·t + 4999`. The body's stored value, read at row `p` and column `j` of the block, is the message of the edge
  row it was handed at `p` (`pay_apply`): each of the three matrix products into a zero accumulator is the plain sum over
  the contracted axis, the bias row is read at its column whatever the output row, the change of format before each
  product is the identity on extended reals, and the rectifier is the maximum with the value of the zero word. Row `p` of
  the block handed at point `t` is row `5000·t + p` of the edge-row array, and the weight and bias windows hand over the
  whole arrays at every point, so what point `t` writes back is block `t` of ONE array, `messages` of the region-entry
  contents (`flushed_eq`); the 250 blocks cover the array (`cover`), hence the array ends equal to it (`final`).

  Before the region the host operations leave the edge rows `edgeRows x ei ef` and each bias vector laid out as one row;
  after it they compute `scatterMean x ei` of the message array. So the result is
  `scatterMean x ei (messages (edgeRows x ei ef) W₁ b₁ W₂ b₂ W₃ b₃)` (`run`).
-/
import proofs.«404242_j76845554860742_4_alg».proof.Proof.FrameIdeal
import proofs.«404242_j76845554860742_4_alg».proof.Proof.Message
import proofs.«404242_j76845554860742_4_alg».proof.Proof.Glue
import proofs.«404242_j76845554860742_4_alg».proof.Proof.LibNary3
import proofs.«404242_j76845554860742_4_alg».proof.Proof.LibKernelHost
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

open scoped BigOperators

namespace Cert.KernelIdeal.Messages

open Cert.KernelIdeal Cert.KernelIdeal.Gen Cert.KernelIdeal.Frame Cert.EdgeMessage Cert.Glue
open Idealize.ShloMosaic Idealize.ShloMosaic.TcCoe Idealize.ShloMosaic.ValueIdx Idealize.SL.Sem
open Idealize.ShloMosaic.Pipeline (Dat)

/-! ## The body's arithmetic at an index -/

/-- The first product at `(p, q)`: the sum over the 144 features. -/
theorem product1 (l : FVec Ideal S5000x144 .bf16) (r : FVec Ideal S144x128 .bf16) (p : Fin 5000) (q : Fin 128) :
    matmul dot_S5000x144_S144x128_S5000x128_1_0_0_1_n_n none l r (constant S5000x128 .f32 0x00000000#32) (ix2 p q)
      = ∑ k : Fin 144, l (ix2 p k) * r (ix2 k q) :=
  (Ideal.matmul_constant_zero_apply dot_S5000x144_S144x128_S5000x128_1_0_0_1_n_n none l r (ix2 p q)).trans
    (Cert.LibBridge.dot_sum_plain dot_S5000x144_S144x128_S5000x128_1_0_0_1_n_n ⟨rfl, rfl, rfl, rfl, rfl, rfl⟩ l r p q)

/-- The second product at `(p, q)`: the sum over the 128 hidden units. -/
theorem product2 (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) :=
  (Ideal.matmul_constant_zero_apply dot_S5000x128_S128x128_S5000x128_1_0_0_1_n_n none l r (ix2 p q)).trans
    (Cert.LibBridge.dot_sum_plain dot_S5000x128_S128x128_S5000x128_1_0_0_1_n_n ⟨rfl, rfl, rfl, rfl, rfl, rfl⟩ l r p q)

/-- The third product at `(p, q)`: the sum over the 128 hidden units. -/
theorem product3 (l : FVec Ideal S5000x128 .bf16) (r : FVec Ideal S128x64 .bf16) (p : Fin 5000) (q : Fin 64) :
    matmul dot_S5000x128_S128x64_S5000x64_1_0_0_1_n_n none l r (constant S5000x64 .f32 0x00000000#32) (ix2 p q)
      = ∑ k : Fin 128, l (ix2 p k) * r (ix2 k q) :=
  (Ideal.matmul_constant_zero_apply dot_S5000x128_S128x64_S5000x64_1_0_0_1_n_n none l r (ix2 p q)).trans
    (Cert.LibBridge.dot_sum_plain dot_S5000x128_S128x64_S5000x64_1_0_0_1_n_n ⟨rfl, rfl, rfl, rfl, rfl, rfl⟩ l r p q)

/-- The body's stored value at `(p, j)` is the message of row `p` of the edge block. -/
theorem pay_apply (x0 : Vec Ideal S5000x144 .f32) (x1 : Vec Ideal S144x128 .f32) (x2 : Vec Ideal S1x128 .f32)
    (x3 : Vec Ideal S128x128 .f32) (x4 : Vec Ideal S1x128 .f32) (x5 : Vec Ideal S128x64 .f32) (x6 : Vec Ideal S1x64 .f32)
    (p : Fin 5000) (j : Fin 64) :
    k0_pay1 (F := Ideal) x0 x1 x2 x3 x4 x5 x6 (ix2 p j)
      = message (fun k => x0 (ix2 p k)) x1 (fun k => x2 (ix2 (0 : Fin 1) k)) x3 (fun k => x4 (ix2 (0 : Fin 1) k)) x5
          (fun k => x6 (ix2 (0 : Fin 1) k)) j := by
  unfold k0_pay1 message affine relu
  simp only [addf_apply, product3, product2, product1, maximumf_apply, truncf_apply, broadcast_apply,
    shapeCast_self, broadcastTo_1b_ab_apply, Ideal.ofBits_def]

/-! ## Blocks of the region-entry arrays -/

variable (m : (ℓ : Loc nD τ sig) → Buf (Elt Ideal) ℓ) (ρ : Dev nD → PrngReg)

theorem zeros2 : (![0, 0] : Fin 2 → Nat) = fun _ => 0 := funext fun a => by fin_cases a <;> rfl

/-- The printed index maps over the grid: the edge-row window and the message window are at block `t` of the leading
    axis at point `t`; every other window stays at block 0. -/
theorem index_facts : ∀ t : Fin cfg0.N,
    win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem point_lt (t : Fin cfg0.N) : t.val < 250 := N_0 ▸ t.isLt

/-- Row `p` of the edge block handed at point `t` is row `5000·t + p` of the edge-row array. -/
theorem edge_block (c : Dev nD) (t : Fin cfg0.N) (p : Fin 5000) (k : Fin 144) :
    (iblk m c 0 t : S5000x144.Idx → EReal) (ix2 p k)
      = (V m c main_v18 : S1250000x144.Idx → EReal) (ix2 (⟨t.val * 5000 + p.val, by have := point_lt t; omega⟩ : Fin 1250000) k) := by
  obtain ⟨e0, e1, -⟩ := index_facts t
  show (V m c main_v18 : S1250000x144.Idx → EReal) (((cfg0.win 0).blk t).view.emb (ix2 p k)) = _
  refine congrArg (V m c main_v18 : S1250000x144.Idx → EReal) (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 144 + 1 * k.val = k.val; rw [e1]; omega

/-- The first weight window hands over the whole array at every point. -/
theorem w1_block (c : Dev nD) (t : Fin cfg0.N) : (iblk m c 1 t : S144x128.Idx → EReal) = (V m c main_arg3 : S144x128.Idx → EReal) := by
  obtain ⟨-, -, -, -, e0, e1, -⟩ := index_facts t
  funext y
  show (V m c main_arg3 : S144x128.Idx → EReal) (((cfg0.win 1).blk t).view.emb y) = _
  refine congrArg (V m c main_arg3 : S144x128.Idx → EReal) (funext fun a => Fin.ext ?_)
  match a with
  | ⟨0, _⟩ => show win0_1.index t (0 : Fin 2) * 144 + 1 * (y 0).val = (y 0).val; rw [e0]; omega
  | ⟨1, _⟩ => show win0_1.index t (1 : Fin 2) * 128 + 1 * (y 1).val = (y 1).val; rw [e1]; omega

theorem b1_block (c : Dev nD) (t : Fin cfg0.N) : (iblk m c 2 t : S1x128.Idx → EReal) = (V m c main_v19 : S1x128.Idx → EReal) := by
  obtain ⟨-, -, -, -, -, -, e0, e1, -⟩ := index_facts t
  funext y
  show (V m c main_v19 : S1x128.Idx → EReal) (((cfg0.win 2).blk t).view.emb y) = _
  refine congrArg (V m c main_v19 : S1x128.Idx → EReal) (funext fun a => Fin.ext ?_)
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

theorem w2_block (c : Dev nD) (t : Fin cfg0.N) : (iblk m c 3 t : S128x128.Idx → EReal) = (V m c main_arg5 : S128x128.Idx → EReal) := by
  obtain ⟨-, -, -, -, -, -, -, -, e0, e1, -⟩ := index_facts t
  funext y
  show (V m c main_arg5 : S128x128.Idx → EReal) (((cfg0.win 3).blk t).view.emb y) = _
  refine congrArg (V m c main_arg5 : S128x128.Idx → EReal) (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

theorem b2_block (c : Dev nD) (t : Fin cfg0.N) : (iblk m c 4 t : S1x128.Idx → EReal) = (V m c main_v20 : S1x128.Idx → EReal) := by
  obtain ⟨-, -, -, -, -, -, -, -, -, -, e0, e1, -⟩ := index_facts t
  funext y
  show (V m c main_v20 : S1x128.Idx → EReal) (((cfg0.win 4).blk t).view.emb y) = _
  refine congrArg (V m c main_v20 : S1x128.Idx → EReal) (funext fun a => Fin.ext ?_)
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

theorem w3_block (c : Dev nD) (t : Fin cfg0.N) : (iblk m c 5 t : S128x64.Idx → EReal) = (V m c main_arg7 : S128x64.Idx → EReal) := by
  obtain ⟨-, -, -, -, -, -, -, -, -, -, -, -, e0, e1, -⟩ := index_facts t
  funext y
  show (V m c main_arg7 : S128x64.Idx → EReal) (((cfg0.win 5).blk t).view.emb y) = _
  refine congrArg (V m c main_arg7 : S128x64.Idx → EReal) (funext fun a => Fin.ext ?_)
  match a with
  | ⟨0, _⟩ => show win0_5.index t (0 : Fin 2) * 128 + 1 * (y 0).val = (y 0).val; rw [e0]; omega
  | ⟨1, _⟩ => show win0_5.index t (1 : Fin 2) * 64 + 1 * (y 1).val = (y 1).val; rw [e1]; omega

theorem b3_block (c : Dev nD) (t : Fin cfg0.N) : (iblk m c 6 t : S1x64.Idx → EReal) = (V m c main_v21 : S1x64.Idx → EReal) := by
  obtain ⟨-, -, -, -, -, -, -, -, -, -, -, -, -, -, e0, e1⟩ := index_facts t
  funext y
  show (V m c main_v21 : S1x64.Idx → EReal) (((cfg0.win 6).blk t).view.emb y) = _
  refine congrArg (V m c main_v21 : S1x64.Idx → EReal) (funext fun a => Fin.ext ?_)
  match a with
  | ⟨0, _⟩ => show win0_6.index t (0 : Fin 2) * 1 + 1 * (y 0).val = (y 0).val; rw [e0]; omega
  | ⟨1, _⟩ => show win0_6.index t (1 : Fin 2) * 64 + 1 * (y 1).val = (y 1).val; rw [e1]; omega

/-! ## The message array -/

/-- The array the region's output ends holding: the messages of the region-entry edge rows under the region-entry weights
    and bias rows. -/
def msgArr (c : Dev nD) : S1250000x64.Idx → EReal :=
  messages (V m c main_v18 : S1250000x144.Idx → EReal) (V m c main_arg3 : S144x128.Idx → EReal)
    (fun k => (V m c main_v19 : S1x128.Idx → EReal) (ix2 (0 : Fin 1) k)) (V m c main_arg5 : S128x128.Idx → EReal)
    (fun k => (V m c main_v20 : S1x128.Idx → EReal) (ix2 (0 : Fin 1) k)) (V m c main_arg7 : S128x64.Idx → EReal)
    (fun k => (V m c main_v21 : S1x64.Idx → EReal) (ix2 (0 : Fin 1) k))

/-- What point `t` writes back is block `t` of the message array. -/
theorem flushed_eq (c : Dev nD) (t : Fin cfg0.N) :
    (dats m 0 c).flushed 7 t = ((cfg0.win 7).blk t).view.read (Elt Ideal) (msgArr m c) := by
  show (cfg0.win 7).cut (grid0.coords t) ((dats m 0 c).after 7 t) = _
  rw [after7]
  unfold blockOut
  rw [View.canon_unit_zero zeros2]
  simp only [View.ld_unit_zero (S := S5000x144) zeros2, View.ld_unit_zero (S := S144x128) zeros2,
    View.ld_unit_zero (S := S1x128) zeros2, View.ld_unit_zero (S := S128x128) zeros2,
    View.ld_unit_zero (S := S128x64) zeros2, View.ld_unit_zero (S := S1x64) zeros2]
  obtain ⟨-, -, e0, e1, -⟩ := index_facts t
  funext y
  obtain ⟨p, q, rfl⟩ : ∃ (p : Fin 5000) (q : Fin 64), y = ix2 p q := ⟨y 0, y 1, eq_ix2 y⟩
  show k0_pay1 (F := Ideal) (iblk m c 0 t) (iblk m c 1 t) (iblk m c 2 t) (iblk m c 3 t) (iblk m c 4 t) (iblk m c 5 t) (iblk m c 6 t) (ix2 p q)
    = msgArr m c (((cfg0.win 7).blk t).view.emb (ix2 p q))
  have hemb : ((cfg0.win 7).blk t).view.emb (ix2 p q)
      = (ix2 (⟨t.val * 5000 + p.val, by have := point_lt t; omega⟩ : Fin 1250000) q : S1250000x64.Idx) := by
    funext a; apply Fin.ext
    match a with
    | ⟨0, _⟩ => show win0_7.index t (0 : Fin 2) * 5000 + 1 * p.val = t.val * 5000 + p.val; rw [e0]; omega
    | ⟨1, _⟩ => show win0_7.index t (1 : Fin 2) * 64 + 1 * q.val = q.val; rw [e1]; omega
  rw [hemb]
  refine (pay_apply (iblk m c 0 t) (iblk m c 1 t) (iblk m c 2 t) (iblk m c 3 t) (iblk m c 4 t) (iblk m c 5 t) (iblk m c 6 t) p q).trans ?_
  unfold msgArr
  rw [messages_apply, w1_block m c t, b1_block m c t, w2_block m c t, b2_block m c t, w3_block m c t, b3_block m c t]
  exact congrArg (fun e => message e _ _ _ _ _ _ q) (funext fun k => edge_block m c t p k)

/-- An index of the message array is in point `t`'s block iff each coordinate is in the block's range on its axis. -/
theorem mem_block (t : Fin cfg0.N) (i : S1250000x64.Idx) :
    i ∈ ((cfg0.win 7).blk t).view.set ↔ ∀ a : Fin 2, win0_7.index t a * S5000x64.size a ≤ (i a).val ∧ (i a).val < win0_7.index t a * S5000x64.size a + S5000x64.size a := by
  show i ∈ ((View.whole main_v22).slice (win0_7.rect t)).set ↔ _
  rw [View.set_slice_whole, Rect.mem_set_unit]
  exact Iff.rfl

/-- Every row of the message array is in the block of the point `row / 5000`, which writes back. -/
theorem cover (i : S1250000x64.Idx) :
    ∃ t : Fin cfg0.N, (cfg0.win 7).flush t = true ∧ i ∈ ((cfg0.win 7).blk t).view.set := by
  have hi0 : (i 0).val < 1250000 := (i 0).isLt
  have hi1 : (i 1).val < 64 := (i 1).isLt
  let t : Fin cfg0.N := ⟨(i 0).val / 5000, by rw [show cfg0.N = 250 from N_0]; omega⟩
  obtain ⟨-, -, e0, e1, -⟩ := index_facts t
  have ht : t.val = (i 0).val / 5000 := rfl
  refine ⟨t, flush0_7 t, ?_⟩
  rw [mem_block]
  intro a
  match a with
  | ⟨0, _⟩ => show win0_7.index t (0 : Fin 2) * 5000 ≤ (i 0).val ∧ (i 0).val < win0_7.index t (0 : Fin 2) * 5000 + 5000; rw [e0, ht]; omega
  | ⟨1, _⟩ => show win0_7.index t (1 : Fin 2) * 64 ≤ (i 1).val ∧ (i 1).val < win0_7.index t (1 : Fin 2) * 64 + 64; rw [e1]; omega

/-- The message array after the run. -/
theorem final (c : Dev nD) : (dats m 0 c).arrAt 7 cfg0.N = msgArr m c :=
  (dats m 0 c).arrAt_eq_of_cover 7 (msgArr m c) (fun t _ => flushed_eq m c t) (cover)

/-! ## What the host operations before the region leave -/

/-- `after_results` with the three-operand concatenate read at its operands' own references. -/
local macro "after_results3" : tactic =>
  `(tactic| (simp only [StableHlo.after_cons, StableHlo.after_nil]
             repeat (first
               | rw [StableHlo.nullary_result] | rw [StableHlo.unary_result] | rw [StableHlo.binary_result] | rw [StableHlo.ternary_result]
               | rw [StableHlo.reshape_result] | rw [Cert.LibNary3.nary3_result]
               | (rw [StableHlo.nullary_result_ne]; rotate_left; decide)
               | (rw [StableHlo.unary_result_ne]; rotate_left; decide)
               | (rw [StableHlo.binary_result_ne]; rotate_left; decide)
               | (rw [StableHlo.ternary_result_ne]; rotate_left; decide)
               | (rw [StableHlo.reshape_result_ne]; rotate_left; decide)
               | (rw [StableHlo.nary_result_ne]; rotate_left; decide))))

set_option maxHeartbeats 4000000 in
/-- The edge rows, as the region finds them. -/
theorem entry_edges (c : Dev nD) :
    (V m c main_v18 : S1250000x144.Idx → EReal)
      = edgeRows (F := Ideal) (m ((c : Thread nD τ).loc main_arg0)) (m ((c : Thread nD τ).loc main_arg1)) (m ((c : Thread nD τ).loc main_arg2)) := by
  dsimp only [V, V0]
  simp only [hostOps0, List.flatten_cons, List.flatten_nil, List.append_nil]
  after_results3
  rfl

/-- The target indices, as the region (and the operations after it) find them. -/
theorem entry_targets (c : Dev nD) :
    (V m c main_v3 : S1250000.Idx → BitVec 32) = targets (F := Ideal) (m ((c : Thread nD τ).loc main_arg1)) := by
  dsimp only [V, V0]
  simp only [hostOps0, List.flatten_cons, List.flatten_nil, List.append_nil]
  after_results3
  rfl

/-- The three bias vectors laid out as rows. -/
theorem entry_b1 (c : Dev nD) :
    (V m c main_v19 : S1x128.Idx → EReal) = shapeCast S1x128 (m ((c : Thread nD τ).loc main_arg4) : S128.Idx → EReal) shapeCasts_S128_S1x128 := by
  dsimp only [V, V0]
  simp only [hostOps0, List.flatten_cons, List.flatten_nil, List.append_nil]
  after_results3
  rfl
theorem entry_b2 (c : Dev nD) :
    (V m c main_v20 : S1x128.Idx → EReal) = shapeCast S1x128 (m ((c : Thread nD τ).loc main_arg6) : S128.Idx → EReal) shapeCasts_S128_S1x128 := by
  dsimp only [V, V0]
  simp only [hostOps0, List.flatten_cons, List.flatten_nil, List.append_nil]
  after_results3
  rfl
theorem entry_b3 (c : Dev nD) :
    (V m c main_v21 : S1x64.Idx → EReal) = shapeCast S1x64 (m ((c : Thread nD τ).loc main_arg8) : S64.Idx → EReal) shapeCasts_S64_S1x64 := by
  dsimp only [V, V0]
  simp only [hostOps0, List.flatten_cons, List.flatten_nil, List.append_nil]
  after_results3
  rfl

/-- The message array in terms of the launch contents. -/
theorem msgArr_eq (c : Dev nD) :
    msgArr m c = messages
      (edgeRows (F := Ideal) (m ((c : Thread nD τ).loc main_arg0)) (m ((c : Thread nD τ).loc main_arg1)) (m ((c : Thread nD τ).loc main_arg2)))
      (m ((c : Thread nD τ).loc main_arg3)) (fun k => (m ((c : Thread nD τ).loc main_arg4) : S128.Idx → EReal) (ix1 k))
      (m ((c : Thread nD τ).loc main_arg5)) (fun k => (m ((c : Thread nD τ).loc main_arg6) : S128.Idx → EReal) (ix1 k))
      (m ((c : Thread nD τ).loc main_arg7)) (fun k => (m ((c : Thread nD τ).loc main_arg8) : S64.Idx → EReal) (ix1 k)) := by
  unfold msgArr
  rw [entry_edges, entry_b1, entry_b2, entry_b3, entry_main_arg3, entry_main_arg5, entry_main_arg7]
  simp only [shapeCast_a_1a_apply]

/-! ## The operations after the region, and the run -/

/-- The result buffer as the operations after the region leave it. -/
theorem tail_value (c : Dev nD) :
    (Pipeline.afterTail₀ cfgs (dats m) 0 (V0 m) [hostOps1] c main_v35 : S50000x64.Idx → EReal)
      = scatterMean (F := Ideal) (m ((c : Thread nD τ).loc main_arg0)) (m ((c : Thread nD τ).loc main_arg1)) (msgArr m c) := by
  have e22 : Pipeline.withArrays spec0 c (V0 m c) (fun w => (dats m 0 c).arrAt w cfg0.N) (Proc.devRef .tc main_v22) = msgArr m c :=
    (Pipeline.withArrays_arr spec0 launch0.win.arr_inj c _ _ 7).trans (final m c)
  have e3 : Pipeline.withArrays spec0 c (V0 m c) (fun w => (dats m 0 c).arrAt w cfg0.N) (Proc.devRef .tc main_v3)
      = targets (F := Ideal) (m ((c : Thread nD τ).loc main_arg1)) :=
    (Pipeline.withArrays_of_ne _ c (V0 m c) _ main_v3 (by exact (by decide : ∀ w, Pipeline.arrRef spec0 w ≠ main_v3))).trans (entry_targets m c)
  have e0 : Pipeline.withArrays spec0 c (V0 m c) (fun w => (dats m 0 c).arrAt w cfg0.N) (Proc.devRef .tc main_arg0)
      = m ((c : Thread nD τ).loc main_arg0) :=
    (Pipeline.withArrays_of_ne _ c (V0 m c) _ main_arg0 (by exact (by decide : ∀ w, Pipeline.arrRef spec0 w ≠ main_arg0))).trans (entry_main_arg0 m c)
  unfold Pipeline.afterTail₀
  show StableHlo.after hostOps1 _ (Proc.devRef .tc main_v35) = _
  after_results3
  rw [e22, e3, e0]
  rfl

/-- The idealized kernel's program runs, ends with the scatter-mean of the edge messages in its result buffer, and leaves
    its arguments as launched. -/
theorem run : θ_run defs (onTc (τ := τ) (main (F := Ideal))) ⟨m, fun _ => 0, ρ⟩ fun r => ∀ c : Dev nD,
      r.2.mem ((c.tc : Thread nD τ).loc main_v35)
        = scatterMean (F := Ideal) (m ((c.tc : Thread nD τ).loc main_arg0)) (m ((c.tc : Thread nD τ).loc main_arg1))
            (messages
              (edgeRows (F := Ideal) (m ((c.tc : Thread nD τ).loc main_arg0)) (m ((c.tc : Thread nD τ).loc main_arg1)) (m ((c.tc : Thread nD τ).loc main_arg2)))
              (m ((c.tc : Thread nD τ).loc main_arg3)) (fun k => (m ((c.tc : Thread nD τ).loc main_arg4) : S128.Idx → EReal) (ix1 k))
              (m ((c.tc : Thread nD τ).loc main_arg5)) (fun k => (m ((c.tc : Thread nD τ).loc main_arg6) : S128.Idx → EReal) (ix1 k))
              (m ((c.tc : Thread nD τ).loc main_arg7)) (fun k => (m ((c.tc : Thread nD τ).loc main_arg8) : S64.Idx → EReal) (ix1 k)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r h c => ⟨?_, args_of_post m (dats m) (A_eq m) r h c⟩) (Frame.run_main (F := Ideal) m ρ)
  have h35 := (h c).2 main_v35 (Pipeline.mem_restRefs_of main_v35 (by decide) (by decide))
  exact (h35.trans (tail_value m c)).trans (by rw [msgArr_eq])

end Cert.KernelIdeal.Messages

end
-- ==== Proof.LibRowOps.lean ====
/-
  Rank-2 ROW OPERATIONS read at an index, for any extents.

  A LayerNorm over the last axis of an [a, b] array is built from: the sum of each row, that sum kept as an [a, 1]
  column, the column spread back over the b columns, and a [1, b] row of per-column scales spread over the a rows.
  A kernel writes these with `vector.multi_reduction`, `vector.shape_cast` and `vector.broadcast`; jnp on the host with
  `stablehlo.reduce` and `stablehlo.broadcast_in_dim`. Each lemma says which element of the operand an element of the
  result is; the two sums are read as `∑ k : Fin b` over the row.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Idealize.ShloMosaic.RowOps

open Idealize.ShloMosaic Idealize.ShloMosaic.ValueIdx

variable {α : Type} {a b : Nat}

/-! ## The kernel's forms -/

/-- A vector [a] kept as a column [a, 1]: element (p, 0) is element p. -/
theorem shapeCast_col_apply (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column [a, 1] spread over b columns: element (p, c) is the column's element (p, 0). -/
theorem broadcastTo_col_apply (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index over row p with column k inserted is (p, k). -/
theorem lift_row (h : (⟨2, ![a, b]⟩ : Shape).Reduces [1] ⟨1, ![a]⟩) (p : Fin a) (k : Fin b) :
    h.lift (ix1 p) k = ix2 p k :=
  funext fun c => Fin.ext (by
    match c with
    | ⟨0, _⟩ => rfl
    | ⟨1, _⟩ => rfl)

/-- A kernel's sum over the last axis, at row p: the sum of the row. -/
theorem multiReduction_row_apply {φ : FTy} (x : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ x acc h hφ hacc (ix1 p) = ∑ k : Fin b, x (ix2 p k) := by
  rw [Ideal.multiReduction_add_single]
  exact Finset.sum_congr rfl fun k _ => congrArg x (lift_row h p k)

/-! ## The host's forms -/

/-- A vector [b] as a row [1, b] (`broadcast_in_dim`, dims = [1]): element (0, q) is element q. -/
theorem bcastInDim_row_apply (h : (⟨1, ![b]⟩ : Shape).BroadcastsInDim ⟨2, ![1, b]⟩ ![1]) (x : (⟨1, ![b]⟩ : Shape).Idx → α)
    (u : Fin 1) (q : Fin b) : broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A row [1, b] spread over a rows (dims = [0, 1]): element (r, q) is the row's element (0, q). -/
theorem bcastInDim_rows_apply (h : (⟨2, ![1, b]⟩ : Shape).BroadcastsInDim ⟨2, ![a, b]⟩ ![0, 1]) (x : (⟨2, ![1, b]⟩ : Shape).Idx → α)
    (r : Fin a) (q : Fin b) : broadcastInDim ⟨2, ![a, b]⟩ ![0, 1] h x (ix2 r q) = x (ix2 (0 : Fin 1) q) := by
  refine broadcastInDim_apply _ h x (ix2 r q) (ix2 (0 : Fin 1) q) fun ax => ?_
  match ax with
  | ⟨0, _⟩ => rfl
  | ⟨1, _⟩ =>
    show q.val = if b = 1 then 0 else q.val
    split
    · have := q.isLt; omega
    · rfl

/-- A vector [a] kept as a column [a, 1] (dims = [0]): element (r, 0) is element r. -/
theorem bcastInDim_col_apply (h : (⟨1, ![a]⟩ : Shape).BroadcastsInDim ⟨2, ![a, 1]⟩ ![0]) (x : (⟨1, ![a]⟩ : Shape).Idx → α)
    (r : Fin a) (u : Fin 1) : broadcastInDim ⟨2, ![a, 1]⟩ ![0] h x (ix2 r u) = x (ix1 r) := by
  refine broadcastInDim_apply _ h x (ix2 r u) (ix1 r) fun ax => ?_
  match ax with
  | ⟨0, _⟩ =>
    show r.val = if a = 1 then 0 else r.val
    split
    · have := r.isLt; omega
    · rfl

/-- A column [a, 1] spread over b columns (dims = [0, 1]): element (r, q) is the column's element (r, 0). -/
theorem bcastInDim_cols_apply (h : (⟨2, ![a, 1]⟩ : Shape).BroadcastsInDim ⟨2, ![a, b]⟩ ![0, 1]) (x : (⟨2, ![a, 1]⟩ : Shape).Idx → α)
    (r : Fin a) (q : Fin b) : broadcastInDim ⟨2, ![a, b]⟩ ![0, 1] h x (ix2 r q) = x (ix2 r (0 : Fin 1)) := by
  refine broadcastInDim_apply _ h x (ix2 r q) (ix2 r (0 : Fin 1)) fun ax => ?_
  match ax with
  | ⟨0, _⟩ =>
    show r.val = if a = 1 then 0 else r.val
    split
    · have := r.isLt; omega
    · rfl
  | ⟨1, _⟩ => rfl

/-- A scalar spread over any shape (dims = []): every element is the scalar. -/
theorem bcastInDim_scalar_apply {t : Shape} (h : (⟨0, ![]⟩ : Shape).BroadcastsInDim t ![]) (x : (⟨0, ![]⟩ : Shape).Idx → α)
    (j : t.Idx) : broadcastInDim t ![] h x j = x ix0 :=
  broadcastInDim_apply _ h x j ix0 fun ax => ax.elim0

/-- The host's sum over the last axis, at row r: the initial value plus the sum of the row. -/
theorem hostReduceAdd_row_apply {φ : FTy} (x : FVec Ideal ⟨2, ![a, b]⟩ φ) (init : FVec Ideal ⟨0, ![]⟩ φ)
    (h' : (⟨2, ![a, b]⟩ : Shape).ReducesTo [1] ⟨1, ![a]⟩) (hu : 0 < (⟨0, ![]⟩ : Shape).numel)
    (h : (⟨2, ![a, b]⟩ : Shape).Reduces [1] ⟨1, ![a]⟩) (r : Fin a) :
    Host.reduceAdd x init h' hu (ix1 r) = init ix0 + ∑ k : Fin b, x (ix2 r k) := by
  unfold Host.reduceAdd
  rw [Ideal.hostReduceAdd_def, Ideal.hostReduceAdd_single h' h, eq_ix0 (Shape.Idx.first hu)]
  exact congrArg (init ix0 + ·) (Finset.sum_congr rfl fun k _ => congrArg x (lift_row h r k))

end Idealize.ShloMosaic.RowOps

end
-- ==== Proof.RefValue.lean ====
/-
  What the idealized reference computes: the scatter-mean of the edge messages.

  The reference is fifty-eight host operations. Its first twenty-three build the edge rows, its last thirteen take the
  scatter-mean of the message array, and both stretches are, operation for operation, the ones the kernel's program runs
  around its region (`edges_eq`, `result_eq`: the stage functions are `edgeRows` and `scatterMean` by unfolding). In between,
  the messages are computed for all 1,250,000 rows at once: three products with the weight matrices, each plus its bias
  vector spread over the rows, the first two followed by the maximum with zero. Read at row `r` and column `j`
  (`mlp_apply`): a product is the sum over the contracted axis of the left operand's row `r` against the right operand's
  column, a bias vector laid out as a row and spread over the rows is read at its column, so the entry is the message
  of row `r` of the edge rows.
-/
import proofs.«404242_j76845554860742_4_alg».proof.Proof.Gen.ReferenceIdeal.Run
import proofs.«404242_j76845554860742_4_alg».proof.Proof.Gen.ReferenceIdeal.Read
import proofs.«404242_j76845554860742_4_alg».proof.Proof.Message
import proofs.«404242_j76845554860742_4_alg».proof.Proof.Glue
import proofs.«404242_j76845554860742_4_alg».proof.Proof.LibKernelHost
import proofs.«404242_j76845554860742_4_alg».proof.Proof.LibRowOps
import Idealize.ShloMosaic.Lib.ValueIdx

set_option maxRecDepth 16384

noncomputable section

open scoped BigOperators

namespace Cert.ReferenceIdeal.Messages

open Cert.ReferenceIdeal Cert.ReferenceIdeal.Gen Cert.ReferenceIdeal.Read Cert.EdgeMessage
open Idealize.ShloMosaic Idealize.ShloMosaic.TcCoe Idealize.ShloMosaic.ValueIdx Idealize.SL.Sem

section Glue

variable {F : FTy → Type} [FloatOps F]

/-- The reference's edge rows are the shared function of the node features, the edge list and the edge features. -/
theorem edges_eq (x0 : (⟨S50000x64, .f32⟩ : BufTy).Contents (Elt F)) (x1 : (⟨S2x1250000, .i32⟩ : BufTy).Contents (Elt F)) (x2 : (⟨S1250000x16, .f32⟩ : BufTy).Contents (Elt F)) :
    val_main_v18 (F := F) x0 x1 x2 = Cert.Glue.edgeRows (F := F) x0 x1 x2 := rfl

/-- The reference's result is the shared scatter-mean of its message array. -/
theorem result_eq (x0 : (⟨S50000x64, .f32⟩ : BufTy).Contents (Elt F)) (x1 : (⟨S2x1250000, .i32⟩ : BufTy).Contents (Elt F)) (x2 : (⟨S1250000x16, .f32⟩ : BufTy).Contents (Elt F)) (x3 : (⟨S144x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x64, .f32⟩ : BufTy).Contents (Elt F)) (x8 : (⟨S64, .f32⟩ : BufTy).Contents (Elt F)) :
    val_main_v45 (F := F) x0 x1 x2 x3 x4 x5 x6 x7 x8
      = Cert.Glue.scatterMean (F := F) x0 x1 (val_main_v32 (F := F) x0 x1 x2 x3 x4 x5 x6 x7 x8) := rfl

end Glue

/-! ## The three products at an index -/

theorem product1 (l : FVec Ideal S1250000x144 .f32) (r : FVec Ideal S144x128 .f32) (p : Fin 1250000) (q : Fin 128) :
    Host.dotGeneral dot_S1250000x144_S144x128_S1250000x128_1_0_0_1_n_n none l r (ix2 p q) = ∑ k : Fin 144, l (ix2 p k) * r (ix2 k q) :=
  Cert.LibBridge.dotGeneral_plain_apply dot_S1250000x144_S144x128_S1250000x128_1_0_0_1_n_n ⟨rfl, rfl, rfl, rfl, rfl, rfl⟩ none l r p q

theorem product2 (l : FVec Ideal S1250000x128 .f32) (r : FVec Ideal S128x128 .f32) (p : Fin 1250000) (q : Fin 128) :
    Host.dotGeneral dot_S1250000x128_S128x128_S1250000x128_1_0_0_1_n_n none l r (ix2 p q) = ∑ k : Fin 128, l (ix2 p k) * r (ix2 k q) :=
  Cert.LibBridge.dotGeneral_plain_apply dot_S1250000x128_S128x128_S1250000x128_1_0_0_1_n_n ⟨rfl, rfl, rfl, rfl, rfl, rfl⟩ none l r p q

theorem product3 (l : FVec Ideal S1250000x128 .f32) (r : FVec Ideal S128x64 .f32) (p : Fin 1250000) (q : Fin 64) :
    Host.dotGeneral dot_S1250000x128_S128x64_S1250000x64_1_0_0_1_n_n none l r (ix2 p q) = ∑ k : Fin 128, l (ix2 p k) * r (ix2 k q) :=
  Cert.LibBridge.dotGeneral_plain_apply dot_S1250000x128_S128x64_S1250000x64_1_0_0_1_n_n ⟨rfl, rfl, rfl, rfl, rfl, rfl⟩ none l r p q

/-! ## A bias vector laid out as a row and spread over the rows, and the rectifier's zero, at an index -/

theorem bias_rows128 (b : FVec Ideal S128 .f32) (r : Fin 1250000) (q : Fin 128) :
    broadcastInDim S1250000x128 ![0, 1] bcast_S1x128_S1250000x128_0_1 (broadcastInDim S1x128 ![1] bcast_S128_S1x128_1 b) (ix2 r q)
      = b (ix1 q) :=
  (RowOps.bcastInDim_rows_apply bcast_S1x128_S1250000x128_0_1 _ r q).trans (RowOps.bcastInDim_row_apply bcast_S128_S1x128_1 b 0 q)

theorem bias_rows64 (b : FVec Ideal S64 .f32) (r : Fin 1250000) (q : Fin 64) :
    broadcastInDim S1250000x64 ![0, 1] bcast_S1x64_S1250000x64_0_1 (broadcastInDim S1x64 ![1] bcast_S64_S1x64_1 b) (ix2 r q)
      = b (ix1 q) :=
  (RowOps.bcastInDim_rows_apply bcast_S1x64_S1250000x64_0_1 _ r q).trans (RowOps.bcastInDim_row_apply bcast_S64_S1x64_1 b 0 q)

theorem zero_rows128 (i : S1250000x128.Idx) :
    broadcastInDim S1250000x128 ![] bcast_S_S1250000x128 (constant (F := Ideal) S_ .f32 0x00000000#32) i
      = Ideal.ofBits .f32 0x00000000#32 :=
  RowOps.bcastInDim_scalar_apply bcast_S_S1250000x128 _ i

/-! ## The stages of the message computation at an index -/

theorem stage19 (x0 : (⟨S50000x64, .f32⟩ : BufTy).Contents (Elt Ideal)) (x1 : (⟨S2x1250000, .i32⟩ : BufTy).Contents (Elt Ideal)) (x2 : (⟨S1250000x16, .f32⟩ : BufTy).Contents (Elt Ideal)) (x3 : (⟨S144x128, .f32⟩ : BufTy).Contents (Elt Ideal)) (r : Fin 1250000) (q : Fin 128) :
    val_main_v19 (F := Ideal) x0 x1 x2 x3 (ix2 r q) = ∑ k : Fin 144, val_main_v18 (F := Ideal) x0 x1 x2 (ix2 r k) * x3 (ix2 k q) := by
  unfold val_main_v19; exact product1 _ _ r q
theorem stage21 (x4 : (⟨S128, .f32⟩ : BufTy).Contents (Elt Ideal)) (r : Fin 1250000) (q : Fin 128) : val_main_v21 (F := Ideal) x4 (ix2 r q) = x4 (ix1 q) := by
  unfold val_main_v21 val_main_v20; exact bias_rows128 x4 r q
theorem stage_zero0 (i : S1250000x128.Idx) : val_main_call0_v0 (F := Ideal) i = Ideal.ofBits .f32 0x00000000#32 := by
  unfold val_main_call0_v0 val_main_call0_cst; exact zero_rows128 i
theorem stage24 (x0 : (⟨S50000x64, .f32⟩ : BufTy).Contents (Elt Ideal)) (x1 : (⟨S2x1250000, .i32⟩ : BufTy).Contents (Elt Ideal)) (x2 : (⟨S1250000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (r : Fin 1250000) (q : Fin 128) :
    val_main_v24 (F := Ideal) x0 x1 x2 x3 x4 x5 (ix2 r q) = ∑ k : Fin 128, val_main_v23 (F := Ideal) x0 x1 x2 x3 x4 (ix2 r k) * x5 (ix2 k q) := by
  unfold val_main_v24; exact product2 _ _ r q
theorem stage26 (x6 : (⟨S128, .f32⟩ : BufTy).Contents (Elt Ideal)) (r : Fin 1250000) (q : Fin 128) : val_main_v26 (F := Ideal) x6 (ix2 r q) = x6 (ix1 q) := by
  unfold val_main_v26 val_main_v25; exact bias_rows128 x6 r q
theorem stage_zero1 (i : S1250000x128.Idx) : val_main_call1_v0 (F := Ideal) i = Ideal.ofBits .f32 0x00000000#32 := by
  unfold val_main_call1_v0 val_main_call1_cst; exact zero_rows128 i
theorem stage29 (x0 : (⟨S50000x64, .f32⟩ : BufTy).Contents (Elt Ideal)) (x1 : (⟨S2x1250000, .i32⟩ : BufTy).Contents (Elt Ideal)) (x2 : (⟨S1250000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x64, .f32⟩ : BufTy).Contents (Elt Ideal)) (r : Fin 1250000) (q : Fin 64) :
    val_main_v29 (F := Ideal) x0 x1 x2 x3 x4 x5 x6 x7 (ix2 r q) = ∑ k : Fin 128, val_main_v28 (F := Ideal) x0 x1 x2 x3 x4 x5 x6 (ix2 r k) * x7 (ix2 k q) := by
  unfold val_main_v29; exact product3 _ _ r q
theorem stage31 (x8 : (⟨S64, .f32⟩ : BufTy).Contents (Elt Ideal)) (r : Fin 1250000) (q : Fin 64) : val_main_v31 (F := Ideal) x8 (ix2 r q) = x8 (ix1 q) := by
  unfold val_main_v31 val_main_v30; exact bias_rows64 x8 r q

/-- Entry `(r, j)` of the reference's message array is output `j` of the message of row `r` of its edge rows. -/
theorem mlp_apply (x0 : (⟨S50000x64, .f32⟩ : BufTy).Contents (Elt Ideal)) (x1 : (⟨S2x1250000, .i32⟩ : BufTy).Contents (Elt Ideal)) (x2 : (⟨S1250000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x64, .f32⟩ : BufTy).Contents (Elt Ideal)) (x8 : (⟨S64, .f32⟩ : BufTy).Contents (Elt Ideal)) (r : Fin 1250000) (j : Fin 64) :
    val_main_v32 (F := Ideal) x0 x1 x2 x3 x4 x5 x6 x7 x8 (ix2 r j)
      = message (fun k => val_main_v18 (F := Ideal) x0 x1 x2 (ix2 r k)) x3 (fun k => x4 (ix1 k)) x5 (fun k => x6 (ix1 k)) x7
          (fun k => x8 (ix1 k)) j := by
  unfold message affine relu
  simp only [val_main_v32_apply, stage29, stage31, val_main_v28_apply, val_main_v27_apply, stage24, stage26, stage_zero1,
    val_main_v23_apply, val_main_v22_apply, stage19, stage21, stage_zero0, Ideal.addf_def, Ideal.maximumf_def]

/-- The reference's message array is `messages` of its edge rows. -/
theorem messages_eq (x0 : (⟨S50000x64, .f32⟩ : BufTy).Contents (Elt Ideal)) (x1 : (⟨S2x1250000, .i32⟩ : BufTy).Contents (Elt Ideal)) (x2 : (⟨S1250000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x64, .f32⟩ : BufTy).Contents (Elt Ideal)) (x8 : (⟨S64, .f32⟩ : BufTy).Contents (Elt Ideal)) :
    val_main_v32 (F := Ideal) x0 x1 x2 x3 x4 x5 x6 x7 x8
      = messages (Cert.Glue.edgeRows (F := Ideal) x0 x1 x2) x3 (fun k => x4 (ix1 k)) x5 (fun k => x6 (ix1 k)) x7 (fun k => x8 (ix1 k)) := by
  funext i
  obtain ⟨r, j, rfl⟩ : ∃ (r : Fin 1250000) (j : Fin 64), i = ix2 r j := ⟨i 0, i 1, eq_ix2 i⟩
  rw [mlp_apply, messages_apply, edges_eq]

/-! ## The run -/

variable (m : (ℓ : Loc nD τ sig) → Buf (Elt Ideal) ℓ) (ρ : Dev nD → PrngReg)

/-- The idealized reference runs, ends with the scatter-mean of the edge messages in its result buffer, and leaves its
    arguments as launched. -/
theorem run : θ_run defs (onTc (τ := τ) (main (F := Ideal))) ⟨m, fun _ => 0, ρ⟩ fun r => ∀ c : Dev nD,
      r.2.mem ((c.tc : Thread nD τ).loc main_v45)
        = Cert.Glue.scatterMean (F := Ideal) (m ((c.tc : Thread nD τ).loc main_arg0)) (m ((c.tc : Thread nD τ).loc main_arg1))
            (messages
              (Cert.Glue.edgeRows (F := Ideal) (m ((c.tc : Thread nD τ).loc main_arg0)) (m ((c.tc : Thread nD τ).loc main_arg1)) (m ((c.tc : Thread nD τ).loc main_arg2)))
              (m ((c.tc : Thread nD τ).loc main_arg3)) (fun k => (m ((c.tc : Thread nD τ).loc main_arg4) : S128.Idx → EReal) (ix1 k))
              (m ((c.tc : Thread nD τ).loc main_arg5)) (fun k => (m ((c.tc : Thread nD τ).loc main_arg6) : S128.Idx → EReal) (ix1 k))
              (m ((c.tc : Thread nD τ).loc main_arg7)) (fun k => (m ((c.tc : Thread nD τ).loc main_arg8) : S64.Idx → EReal) (ix1 k)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans
      ((val_main_v45_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))).trans
        ((result_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))).trans
          (congrArg (Cert.Glue.scatterMean (F := Ideal) (m ((c.tc : Thread nD τ).loc main_arg0)) (m ((c.tc : Thread nD τ).loc main_arg1)))
            (messages_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))))),
      (h c).2⟩) (Cert.ReferenceIdeal.Value.run (F := Ideal) m ρ)

end Cert.ReferenceIdeal.Messages

end
-- ==== Proof.lean ====
/-
  An edge-message layer on a graph of 50,000 nodes and 1,250,000 edges: every edge gathers its two endpoints' features
  and its own, sends the 144 numbers through three affine layers with a rectifier after the first two, and every node
  adds to its features the mean of the messages of the edges that target it.

  The kernel's program and the reference do the gathering and the averaging with the same host operations; they differ
  in the middle. The kernel's program runs the three layers in a pipelined region, 5000 edges per grid point, rounding
  the operands of each matrix product to bf16 on the way in; the reference runs them on the whole [1250000, 144] array
  with three host products. Over the extended reals a change of format is the identity, a product into a zero
  accumulator and a host product are the same sum over the contracted axis, and no row of the message array depends on
  another, so both message arrays are `messages` of the same edge rows (Proof/Message.lean), index by index:
  Proof/KernelValue.lean reads the kernel's off the blocks its 250 points write back, Proof/RefValue.lean the
  reference's off its stages. The shared host operations are carried as two functions (Proof/Glue.lean) and never opened.
  No law of the extended reals beyond reading each operation at an index is used, so the precondition is never opened.

  The two kernel programs' frames are Proof/FrameBits.lean and Proof/FrameIdeal.lean (one text at the two float families);
  the reference's is its run with the result dropped. The idealization rewrote nothing, so `preserves` is trivial.
-/
import proofs.«404242_j76845554860742_4_alg».proof.Defs
import proofs.«404242_j76845554860742_4_alg».proof.Proof.Gen.Kernel
import proofs.«404242_j76845554860742_4_alg».proof.Proof.Gen.KernelIdeal
import proofs.«404242_j76845554860742_4_alg».proof.Proof.Gen.ReferenceIdeal
import proofs.«404242_j76845554860742_4_alg».proof.Proof.Gen.ReferenceIdeal.Run
import proofs.«404242_j76845554860742_4_alg».proof.Proof.Gen.ReferenceIdeal.Read
import proofs.«404242_j76845554860742_4_alg».proof.Proof.Gen.Pre_finite_inputs
import proofs.«404242_j76845554860742_4_alg».proof.Proof.FrameBits
import proofs.«404242_j76845554860742_4_alg».proof.Proof.FrameIdeal
import proofs.«404242_j76845554860742_4_alg».proof.Proof.KernelValue
import proofs.«404242_j76845554860742_4_alg».proof.Proof.RefValue

noncomputable section

namespace Cert.Proof

open Idealize.ShloMosaic Idealize.SL.Sem

theorem frame_p : Cert.frame_Kernel := fun m ρ _ => Cert.Kernel.Frame.frame m ρ

theorem frame_pi : Cert.frame_KernelIdeal := fun m ρ _ => Cert.KernelIdeal.Frame.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with `scatterMean x ei (messages (edgeRows x ei ef) W₁ b₁ W₂ b₂ W₃ b₃)` of their own arguments, and the
    arguments agree. -/
theorem algebraic : Cert.algebraic_KernelIdeal_ReferenceIdeal := by
  intro m ρ m' ρ' _ hagree
  refine ⟨_, Cert.KernelIdeal.Messages.run m ρ, ?_⟩
  refine (θ_run Cert.ReferenceIdeal.defs _ _).mono (fun _ h c => ⟨(h c).1.trans ?_, (h c).2⟩)
    (Cert.ReferenceIdeal.Messages.run m' ρ')
  obtain ⟨a0, a1, a2, a3, a4, a5, a6, a7, a8⟩ := hagree c
  rw [a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
